-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x64x112x112 : Shape := ⟨4, ![64, 64, 112, 112]⟩
abbrev S64 : Shape := ⟨1, ![64]⟩
abbrev S_ : Shape := ⟨0, ![]⟩

class Facts : Prop where
  bcast_S_S64x64x112x112 : S_.BroadcastsInDim S64x64x112x112 (![] : Fin 0 → Fin S64x64x112x112.rank)
  reducesTo_S64x64x112x112_S_d0_1_2_3 : S64x64x112x112.ReducesTo [0, 1, 2, 3] S_
  h_S_ : 0 < S_.numel
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S64x64x112x112 .f32) (main_arg1 : FVec F S64 .f32) (main_arg2 : FVec F S64 .f32) (main_arg3 : FVec F S64 .f32) (main_arg4 : FVec F S64 .f32) (main_arg5 : IVec S64 32) : IVec S_ 1 :=
  let main_v0 : FVec F S64x64x112x112 .f32 := Host.absf main_arg0
  let main_cst : FVec F S_ .f32 := constant S_ .f32 0x7F800000#32
  let main_v1 : FVec F S64x64x112x112 .f32 := broadcastInDim S64x64x112x112 ![] bcast_S_S64x64x112x112 main_cst
  let main_v2 : IVec S64x64x112x112 1 := cmpf .olt main_v0 main_v1
  let main_c : IVec S_ 1 := constantI S_ 1 1#1
  let main_v3 : IVec S_ 1 := (fun x v => Host.reduce IntOp.andi x v reducesTo_S64x64x112x112_S_d0_1_2_3 h_S_) main_v2 main_c
  let main_v4 : FVec F S64 .f32 := Host.absf main_arg1
  let main_cst_0 : FVec F S_ .f32 := constant S_ .f32 0x7F800000#32
  let main_v5 : FVec F S64 .f32 := broadcastInDim S64 ![] bcast_S_S64 main_cst_0
  let main_v6 : IVec S64 1 := cmpf .olt main_v4 main_v5
  let main_c_1 : IVec S_ 1 := constantI S_ 1 1#1
  let main_v7 : IVec S_ 1 := (fun x v => Host.reduce IntOp.andi x v reducesTo_S64_S_d0 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_v13 main_v16
-- ==== Kernel.lean ====
abbrev S64x64x112x112 : Shape := ⟨4, ![64, 64, 112, 112]⟩
abbrev S64 : Shape := ⟨1, ![64]⟩
abbrev S64x64 : Shape := ⟨2, ![64, 64]⟩
abbrev S8x64x16x112 : Shape := ⟨4, ![8, 64, 16, 112]⟩
abbrev S8x64 : Shape := ⟨2, ![8, 64]⟩
abbrev S8x64x16 : Shape := ⟨3, ![8, 64, 16]⟩
abbrev S_ : Shape := ⟨0, ![]⟩
abbrev S4x64 : Shape := ⟨2, ![4, 64]⟩
abbrev S64x1 : Shape := ⟨2, ![64, 1]⟩
abbrev S4 : Shape := ⟨1, ![4]⟩
abbrev S4x1 : Shape := ⟨2, ![4, 1]⟩
abbrev S1x64 : Shape := ⟨2, ![1, 64]⟩
abbrev S8x64x1x1 : Shape := ⟨4, ![8, 64, 1, 1]⟩
abbrev S1x64x1x1 : Shape := ⟨4, ![1, 64, 1, 1]⟩

abbrev nBuf : Space → Nat
  | .hbm => 80
  | .vmem => 16
  | .smem => 0
  | _ => 0

abbrev bufTy : (tb : Table) → Fin (tcTables nBuf tb) → BufTy
  | .hbm, ⟨0, _⟩ => ⟨S64x64x112x112, .f32⟩
  | .hbm, ⟨1, _⟩ => ⟨S64, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S64, .i32⟩
  | .hbm, ⟨6, _⟩ => ⟨S64x64, .f32⟩
  | .hbm, ⟨7, _⟩ => ⟨S64x64, .f32⟩
  | .hbm, ⟨8, _⟩ => ⟨S_, .f32⟩
  | .hbm, ⟨9, _⟩ => ⟨S4x64, .f32⟩
  | .hbm, ⟨10, _⟩ => ⟨S64x1, .i32⟩
  | .hbm, ⟨11, _⟩ => ⟨S4x64, .f32⟩
  | .hbm, ⟨12, _⟩ => ⟨S_, .f32⟩
  | .hbm, ⟨13, _⟩ => ⟨S4x64, .f32⟩
  | .hbm, ⟨14, _⟩ => ⟨S64x1, .i32⟩
  | .hbm, ⟨15, _⟩ => ⟨S4x64, .f32⟩
  | .hbm, ⟨16, _⟩ => ⟨S_, .f32⟩
  | .hbm, ⟨17, _⟩ => ⟨S64, .f32⟩
  | .hbm, ⟨18, _⟩ => ⟨S_, .f32⟩
  | .hbm, ⟨19, _⟩ => ⟨S4, .f32⟩
  | .hbm, ⟨20, _⟩ => ⟨S64x1, .i32⟩
  | .hbm, ⟨21, _⟩ => ⟨S4, .f32⟩
  | .hbm, ⟨22, _⟩ => ⟨S4x1, .f32⟩
  | .hbm, ⟨23, _⟩ => ⟨S_, .f32⟩
  | .hbm, ⟨24, _⟩ => ⟨S4x1, .f32⟩
  | .hbm, ⟨25, _⟩ => ⟨S4x1, .f32⟩
  | .hbm, ⟨26, _⟩ => ⟨S_, .f32⟩
  | .hbm, ⟨27, _⟩ => ⟨S4x1, .f32⟩
  | .hbm, ⟨28, _⟩ => ⟨S4x1, .f32⟩
  | .hbm, ⟨29, _⟩ => ⟨S4x64, .f32⟩
  | .hbm, ⟨30, _⟩ => ⟨S4x64, .f32⟩
  | .hbm, ⟨31, _⟩ => ⟨S4x64, .f32⟩
  | .hbm, ⟨32, _⟩ => ⟨S4x64, .f32⟩
  | .hbm, ⟨33, _⟩ => ⟨S4x64, .f32⟩
  | .hbm, ⟨34, _⟩ => ⟨S4x64, .f32⟩
  | .hbm, ⟨35, _⟩ => ⟨S_, .f32⟩
  | .hbm, ⟨36, _⟩ => ⟨S4x1, .f32⟩
  | .hbm, ⟨37, _⟩ => ⟨S4x1, .f32⟩
  | .hbm, ⟨38, _⟩ => ⟨S_, .f32⟩
  | .hbm, ⟨39, _⟩ => ⟨S4x1, .f32⟩
  | .hbm, ⟨40, _⟩ => ⟨S4x1, .f32⟩
  | .hbm, ⟨41, _⟩ => ⟨S4x64, .f32⟩
  | .hbm, ⟨42, _⟩ => ⟨S4x64, .f32⟩
  | .hbm, ⟨43, _⟩ => ⟨S_, .i32⟩
  | .hbm, ⟨44, _⟩ => ⟨S64, .i32⟩
  | .hbm, ⟨45, _⟩ => ⟨S64, .i1⟩
  | .hbm, ⟨46, _⟩ => ⟨S_, .i32⟩
  | .hbm, ⟨47, _⟩ => ⟨S64, .i32⟩
  | .hbm, ⟨48, _⟩ => ⟨S64, .i32⟩
  | .hbm, ⟨49, _⟩ => ⟨S64, .i32⟩
  | .hbm, ⟨50, _⟩ => ⟨S64x1, .i32⟩
  | .hbm, ⟨51, _⟩ => ⟨S64x64, .f32⟩
  | .hbm, ⟨52, _⟩ => ⟨S_, .f32⟩
  | .hbm, ⟨53, _⟩ => ⟨S64x64, .f32⟩
  | .hbm, ⟨54, _⟩ => ⟨S64x64, .f32⟩
  | .hbm, ⟨55, _⟩ => ⟨S1x64, .f32⟩
  | .hbm, ⟨56, _⟩ => ⟨S_, .f32⟩
  | .hbm, ⟨57, _⟩ => ⟨S1x64, .f32⟩
  | .hbm, ⟨58, _⟩ => ⟨S1x64, .f32⟩
  | .hbm, ⟨59, _⟩ => ⟨S64x64, .f32⟩
  | .hbm, ⟨60, _⟩ => ⟨S64x64, .f32⟩
  | .hbm, ⟨61, _⟩ => ⟨S_, .i32⟩
  | .hbm, ⟨62, _⟩ => ⟨S64, .i32⟩
  | .hbm, ⟨63, _⟩ => ⟨S64, .i1⟩
  | .hbm, ⟨64, _⟩ => ⟨S_, .i32⟩
  | .hbm, ⟨65, _⟩ => ⟨S64, .i32⟩
  | .hbm, ⟨66, _⟩ => ⟨S64, .i32⟩
  | .hbm, ⟨67, _⟩ => ⟨S64, .i32⟩
  | .hbm, ⟨68, _⟩ => ⟨S64x1, .i32⟩
  | .hbm, ⟨69, _⟩ => ⟨S64x64, .f32⟩
  | .hbm, ⟨70, _⟩ => ⟨S_, .f32⟩
  | .hbm, ⟨71, _⟩ => ⟨S64x64, .f32⟩
  | .hbm, ⟨72, _⟩ => ⟨S64x64, .f32⟩
  | .hbm, ⟨73, _⟩ => ⟨S1x64, .f32⟩
  | .hbm, ⟨74, _⟩ => ⟨S_, .f32⟩
  | .hbm, ⟨75, _⟩ => ⟨S1x64, .f32⟩
  | .hbm, ⟨76, _⟩ => ⟨S1x64, .f32⟩
  | .hbm, ⟨77, _⟩ => ⟨S64x64, .f32⟩
  | .hbm, ⟨78, _⟩ => ⟨S64x64, .f32⟩
  | .hbm, ⟨79, _⟩ => ⟨S64x64x112x112, .f32⟩
  | .local _ .vmem, ⟨0, _⟩ => ⟨S8x64x16x112, .f32⟩
  | .local _ .vmem, ⟨1, _⟩ => ⟨S8x64x16x112, .f32⟩
  | .local _ .vmem, ⟨2, _⟩ => ⟨S8x64, .f32⟩
  | .local _ .vmem, ⟨3, _⟩ => ⟨S8x64, .f32⟩
  | .local _ .vmem, ⟨4, _⟩ => ⟨S8x64, .f32⟩
  | .local _ .vmem, ⟨5, _⟩ => ⟨S8x64, .f32⟩
  | .local _ .vmem, ⟨6, _⟩ => ⟨S8x64x16x112, .f32⟩
  | .local _ .vmem, ⟨7, _⟩ => ⟨S8x64x16x112, .f32⟩
  | .local _ .vmem, ⟨8, _⟩ => ⟨S8x64, .f32⟩
  | .local _ .vmem, ⟨9, _⟩ => ⟨S8x64, .f32⟩
  | .local _ .vmem, ⟨10, _⟩ => ⟨S8x64, .f32⟩
  | .local _ .vmem, ⟨11, _⟩ => ⟨S8x64, .f32⟩
  | .local _ .vmem, ⟨12, _⟩ => ⟨S64, .f32⟩
  | .local _ .vmem, ⟨13, _⟩ => ⟨S64, .f32⟩
  | .local _ .vmem, ⟨14, _⟩ => ⟨S8x64x16x112, .f32⟩
  | .local _ .vmem, ⟨15, _⟩ => ⟨S8x64x16x112, .f32⟩
  | _, _ => ⟨S64x64x112x112, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_3 : Ref sig .tc := ⟨.hbm, 23, rfl⟩
abbrev main_v12 : Ref sig .tc := ⟨.hbm, 24, rfl⟩
abbrev main_v13 : Ref sig .tc := ⟨.hbm, 25, rfl⟩
abbrev main_cst_4 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c : Ref sig .tc := ⟨.hbm, 43, rfl⟩
abbrev main_v28 : Ref sig .tc := ⟨.hbm, 44, rfl⟩
abbrev main_v29 : Ref sig .tc := ⟨.hbm, 45, rfl⟩
abbrev main_c_7 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_8 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_9 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_c_10 : Ref sig .tc := ⟨.hbm, 61, rfl⟩
abbrev main_v42 : Ref sig .tc := ⟨.hbm, 62, rfl⟩
abbrev main_v43 : Ref sig .tc := ⟨.hbm, 63, rfl⟩
abbrev main_c_11 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_12 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_13 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨2, ![8, 7], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x64x16x112 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![8, 7], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_5 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage1_0 : Fin 2 → Memref sig .tc .vmem S8x64x16x112 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S8x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S8x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S8x64x16x112 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

class Facts₀ : Prop where
  inb_S8x64_S8x64_0_0 : ∀ a, (![0, 0] : Fin 2 → Nat) a + S8x64.size a ≤ S8x64.size a
  h_S8x64 : 0 < S8x64.numel
  inb_S8x64x16x112_S8x64x16x112_0_0_0_0 : ∀ a, (![0, 0, 0, 0] : Fin 4 → Nat) a + S8x64x16x112.size a ≤ S8x64x16x112.size a
  h_S8x64x16x112 : 0 < S8x64x16x112.numel
  reduces_S8x64x16x112_S8x64x16 : S8x64x16x112.Reduces [3] S8x64x16
  shapeCasts_S8x64_S8x64 : S8x64.ShapeCasts S8x64
  reduces_S8x64x16_S8x64 : S8x64x16.Reduces [2] S8x64
  bcast_S_S4x64 : S_.BroadcastsInDim S4x64 (![] : Fin 0 → Fin S4x64.rank)
  bcast_S64_S64x1_0 : S64.BroadcastsInDim S64x1 (![0] : Fin 1 → Fin S64x1.rank)
  bcast_S_S64 : S_.BroadcastsInDim S64 (![] : Fin 0 → Fin S64.rank)
  bcast_S_S4 : S_.BroadcastsInDim S4 (![] : Fin 0 → Fin S4.rank)
  bcast_S4_S4x1_0 : S4.BroadcastsInDim S4x1 (![0] : Fin 1 → Fin S4x1.rank)
  bcast_S_S4x1 : S_.BroadcastsInDim S4x1 (![] : Fin 0 → Fin S4x1.rank)
  bcast_S4x1_S4x64_0_1 : S4x1.BroadcastsInDim S4x64 (![0, 1] : Fin 2 → Fin S4x64.rank)
  bcast_S_S64x64 : S_.BroadcastsInDim S64x64 (![] : Fin 0 → Fin S64x64.rank)
  bcast_S64_S1x64_1 : S64.BroadcastsInDim S1x64 (![1] : Fin 1 → Fin S1x64.rank)
  bcast_S_S1x64 : S_.BroadcastsInDim S1x64 (![] : Fin 0 → Fin S1x64.rank)
  bcast_S1x64_S64x64_0_1 : S1x64.BroadcastsInDim S64x64 (![0, 1] : Fin 2 → Fin S64x64.rank)
  shapeCasts_S8x64_S8x64x1x1 : S8x64.ShapeCasts S8x64x1x1
  inb_S64_S64_0 : ∀ a, (![0] : Fin 1 → Nat) a + S64.size a ≤ S64.size a
  h_S64 : 0 < S64.numel
  shapeCasts_S64_S1x64x1x1 : S64.ShapeCasts S1x64x1x1
  broadcasts_S8x64x1x1_S8x64x16x112 : S8x64x1x1.Broadcasts S8x64x16x112
  broadcasts_S1x64x1x1_S8x64x16x112 : S1x64x1x1.Broadcasts S8x64x16x112
  scatter_S4x64_S64x1_S64x64_1_0_0_1_wf : ScatterDims.WF S4x64 S64x1 S64x64 [1] [0] [0] 1
  scatter_S4_S64x1_S64_n_0_0_1_wf : ScatterDims.WF S4 S64x1 S64 [] [0] [0] 1
  gather_S4x64_S64x1_S64x64_1_0_n_n_0_1_164_wf : GatherDims.WF S4x64 S64x1 S64x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x64x16x112.size a ≤ S64x64x112x112.size a
  hwx0_0 : ∀ i : grid0.Coords, EltTy.bits .f32 = 32 ∨ (Rect.block (s := S64x64x112x112) S8x64x16x112.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x64.size a ≤ S64x64.size a
  hwx0_1 : ∀ i : grid0.Coords, EltTy.bits .f32 = 32 ∨ (Rect.block (s := S64x64) S8x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x64.size a ≤ S64x64.size a
  hwx0_2 : ∀ i : grid0.Coords, EltTy.bits .f32 = 32 ∨ (Rect.block (s := S64x64) S8x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x64x16x112.size a ≤ S64x64x112x112.size a
  hwx1_0 : ∀ i : grid1.Coords, EltTy.bits .f32 = 32 ∨ (Rect.block (s := S64x64x112x112) S8x64x16x112.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x64.size a ≤ S64x64.size a
  hwx1_1 : ∀ i : grid1.Coords, EltTy.bits .f32 = 32 ∨ (Rect.block (s := S64x64) S8x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x64.size a ≤ S64x64.size a
  hwx1_2 : ∀ i : grid1.Coords, EltTy.bits .f32 = 32 ∨ (Rect.block (s := S64x64) S8x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64.size a ≤ S64.size a
  hwx1_3 : ∀ i : grid1.Coords, EltTy.bits .f32 = 32 ∨ (Rect.block (s := S64) S64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64.size a ≤ S64.size a
  hwx1_4 : ∀ i : grid1.Coords, EltTy.bits .f32 = 32 ∨ (Rect.block (s := S64) S64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S8x64x16x112.size a ≤ S64x64x112x112.size a
  hwx1_5 : ∀ i : grid1.Coords, EltTy.bits .f32 = 32 ∨ (Rect.block (s := S64x64x112x112) S8x64x16x112.size (cc1_transform_5 i) (hinb1_5 i)).WholeWords (EltTy.packing .f32)

variable [Facts₀]

def scatter_S4x64_S64x1_S64x64_1_0_0_1 : ScatterDims S4x64 S64x1 S64x64 where
  updateWindowDims := [1]
  insertedWindowDims := [0]
  scatterDimsToOperandDims := [0]
  indexVectorDim := 1
  wf := scatter_S4x64_S64x1_S64x64_1_0_0_1_wf
def scatter_S4_S64x1_S64_n_0_0_1 : ScatterDims S4 S64x1 S64 where
  updateWindowDims := []
  insertedWindowDims := [0]
  scatterDimsToOperandDims := [0]
  indexVectorDim := 1
  wf := scatter_S4_S64x1_S64_n_0_0_1_wf
def gather_S4x64_S64x1_S64x64_1_0_n_n_0_1_164 : GatherDims S4x64 S64x1 S64x64 where
  offsetDims := [1]
  collapsedSliceDims := [0]
  operandBatchingDims := []
  startIndicesBatchingDims := []
  startIndexMap := [0]
  indexVectorDim := 1
  sliceSizes := ![1, 64]
  wf := gather_S4x64_S64x1_S64x64_1_0_n_n_0_1_164_wf

abbrev win0_0 : Pipeline.Window sig grid0 :=
  Pipeline.Window.ofSpec (Memref.whole main_arg0) S8x64x16x112.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S8x64.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S8x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S8x64x16x112.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S8x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v55) S8x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v56) S8x64x16x112.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S64x64x112x112 : Shape := ⟨4, ![64, 64, 112, 112]⟩
abbrev S64 : Shape := ⟨1, ![64]⟩
abbrev S_ : Shape := ⟨0, ![]⟩
abbrev S64x64 : Shape := ⟨2, ![64, 64]⟩
abbrev S4x64 : Shape := ⟨2, ![4, 64]⟩
abbrev S64x1 : Shape := ⟨2, ![64, 1]⟩
abbrev S4 : Shape := ⟨1, ![4]⟩
abbrev S4x1 : Shape := ⟨2, ![4, 1]⟩
abbrev S1x64 : Shape := ⟨2, ![1, 64]⟩
abbrev S64x64x1x1 : Shape := ⟨4, ![64, 64, 1, 1]⟩
abbrev S1x64x1x1 : Shape := ⟨4, ![1, 64, 1, 1]⟩

abbrev nBuf : Space → Nat
  | .hbm => 98
  | .vmem => 0
  | .smem => 0
  | _ => 0

abbrev bufTy : (tb : Table) → Fin (tcTables nBuf tb) → BufTy
  | .hbm, ⟨0, _⟩ => ⟨S64x64x112x112, .f32⟩
  | .hbm, ⟨1, _⟩ => ⟨S64, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S64, .i32⟩
  | .hbm, ⟨6, _⟩ => ⟨S_, .f32⟩
  | .hbm, ⟨7, _⟩ => ⟨S64x64, .f32⟩
  | .hbm, ⟨8, _⟩ => ⟨S64x64x112x112, .f32⟩
  | .hbm, ⟨9, _⟩ => ⟨S_, .f32⟩
  | .hbm, ⟨10, _⟩ => ⟨S64x64, .f32⟩
  | .hbm, ⟨11, _⟩ => ⟨S_, .f32⟩
  | .hbm, ⟨12, _⟩ => ⟨S4x64, .f32⟩
  | .hbm, ⟨13, _⟩ => ⟨S64x1, .i32⟩
  | .hbm, ⟨14, _⟩ => ⟨S4x64, .f32⟩
  | .hbm, ⟨15, _⟩ => ⟨S_, .f32⟩
  | .hbm, ⟨16, _⟩ => ⟨S4x64, .f32⟩
  | .hbm, ⟨17, _⟩ => ⟨S64x1, .i32⟩
  | .hbm, ⟨18, _⟩ => ⟨S4x64, .f32⟩
  | .hbm, ⟨19, _⟩ => ⟨S_, .f32⟩
  | .hbm, ⟨20, _⟩ => ⟨S64, .f32⟩
  | .hbm, ⟨21, _⟩ => ⟨S_, .f32⟩
  | .hbm, ⟨22, _⟩ => ⟨S4, .f32⟩
  | .hbm, ⟨23, _⟩ => ⟨S64x1, .i32⟩
  | .hbm, ⟨24, _⟩ => ⟨S4, .f32⟩
  | .hbm, ⟨25, _⟩ => ⟨S4x1, .f32⟩
  | .hbm, ⟨26, _⟩ => ⟨S_, .f32⟩
  | .hbm, ⟨27, _⟩ => ⟨S4x1, .f32⟩
  | .hbm, ⟨28, _⟩ => ⟨S4x1, .f32⟩
  | .hbm, ⟨29, _⟩ => ⟨S_, .f32⟩
  | .hbm, ⟨30, _⟩ => ⟨S4x1, .f32⟩
  | .hbm, ⟨31, _⟩ => ⟨S4x1, .f32⟩
  | .hbm, ⟨32, _⟩ => ⟨S4x64, .f32⟩
  | .hbm, ⟨33, _⟩ => ⟨S4x64, .f32⟩
  | .hbm, ⟨34, _⟩ => ⟨S4x64, .f32⟩
  | .hbm, ⟨35, _⟩ => ⟨S4x64, .f32⟩
  | .hbm, ⟨36, _⟩ => ⟨S4x64, .f32⟩
  | .hbm, ⟨37, _⟩ => ⟨S4x64, .f32⟩
  | .hbm, ⟨38, _⟩ => ⟨S_, .f32⟩
  | .hbm, ⟨39, _⟩ => ⟨S4x1, .f32⟩
  | .hbm, ⟨40, _⟩ => ⟨S4x1, .f32⟩
  | .hbm, ⟨41, _⟩ => ⟨S_, .f32⟩
  | .hbm, ⟨42, _⟩ => ⟨S4x1, .f32⟩
  | .hbm, ⟨43, _⟩ => ⟨S4x1, .f32⟩
  | .hbm, ⟨44, _⟩ => ⟨S4x64, .f32⟩
  | .hbm, ⟨45, _⟩ => ⟨S4x64, .f32⟩
  | .hbm, ⟨46, _⟩ => ⟨S_, .i32⟩
  | .hbm, ⟨47, _⟩ => ⟨S64, .i32⟩
  | .hbm, ⟨48, _⟩ => ⟨S64, .i1⟩
  | .hbm, ⟨49, _⟩ => ⟨S_, .i32⟩
  | .hbm, ⟨50, _⟩ => ⟨S64, .i32⟩
  | .hbm, ⟨51, _⟩ => ⟨S64, .i32⟩
  | .hbm, ⟨52, _⟩ => ⟨S64, .i32⟩
  | .hbm, ⟨53, _⟩ => ⟨S64x1, .i32⟩
  | .hbm, ⟨54, _⟩ => ⟨S64x64, .f32⟩
  | .hbm, ⟨55, _⟩ => ⟨S_, .f32⟩
  | .hbm, ⟨56, _⟩ => ⟨S64x64, .f32⟩
  | .hbm, ⟨57, _⟩ => ⟨S64x64, .f32⟩
  | .hbm, ⟨58, _⟩ => ⟨S1x64, .f32⟩
  | .hbm, ⟨59, _⟩ => ⟨S_, .f32⟩
  | .hbm, ⟨60, _⟩ => ⟨S1x64, .f32⟩
  | .hbm, ⟨61, _⟩ => ⟨S1x64, .f32⟩
  | .hbm, ⟨62, _⟩ => ⟨S64x64, .f32⟩
  | .hbm, ⟨63, _⟩ => ⟨S64x64, .f32⟩
  | .hbm, ⟨64, _⟩ => ⟨S_, .i32⟩
  | .hbm, ⟨65, _⟩ => ⟨S64, .i32⟩
  | .hbm, ⟨66, _⟩ => ⟨S64, .i1⟩
  | .hbm, ⟨67, _⟩ => ⟨S_, .i32⟩
  | .hbm, ⟨68, _⟩ => ⟨S64, .i32⟩
  | .hbm, ⟨69, _⟩ => ⟨S64, .i32⟩
  | .hbm, ⟨70, _⟩ => ⟨S64, .i32⟩
  | .hbm, ⟨71, _⟩ => ⟨S64x1, .i32⟩
  | .hbm, ⟨72, _⟩ => ⟨S64x64, .f32⟩
  | .hbm, ⟨73, _⟩ => ⟨S_, .f32⟩
  | .hbm, ⟨74, _⟩ => ⟨S64x64, .f32⟩
  | .hbm, ⟨75, _⟩ => ⟨S64x64, .f32⟩
  | .hbm, ⟨76, _⟩ => ⟨S1x64, .f32⟩
  | .hbm, ⟨77, _⟩ => ⟨S_, .f32⟩
  | .hbm, ⟨78, _⟩ => ⟨S1x64, .f32⟩
  | .hbm, ⟨79, _⟩ => ⟨S1x64, .f32⟩
  | .hbm, ⟨80, _⟩ => ⟨S64x64, .f32⟩
  | .hbm, ⟨81, _⟩ => ⟨S64x64, .f32⟩
  | .hbm, ⟨82, _⟩ => ⟨S64x64x1x1, .f32⟩
  | .hbm, ⟨83, _⟩ => ⟨S64x64x112x112, .f32⟩
  | .hbm, ⟨84, _⟩ => ⟨S64x64x112x112, .f32⟩
  | .hbm, ⟨85, _⟩ => ⟨S_, .f32⟩
  | .hbm, ⟨86, _⟩ => ⟨S64x64, .f32⟩
  | .hbm, ⟨87, _⟩ => ⟨S64x64, .f32⟩
  | .hbm, ⟨88, _⟩ => ⟨S64x64, .f32⟩
  | .hbm, ⟨89, _⟩ => ⟨S64x64x1x1, .f32⟩
  | .hbm, ⟨90, _⟩ => ⟨S64x64x112x112, .f32⟩
  | .hbm, ⟨91, _⟩ => ⟨S64x64x112x112, .f32⟩
  | .hbm, ⟨92, _⟩ => ⟨S1x64x1x1, .f32⟩
  | .hbm, ⟨93, _⟩ => ⟨S64x64x112x112, .f32⟩
  | .hbm, ⟨94, _⟩ => ⟨S64x64x112x112, .f32⟩
  | .hbm, ⟨95, _⟩ => ⟨S1x64x1x1, .f32⟩
  | .hbm, ⟨96, _⟩ => ⟨S64x64x112x112, .f32⟩
  | .hbm, ⟨97, _⟩ => ⟨S64x64x112x112, .f32⟩
  | _, _ => ⟨S64x64x112x112, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_cst_1 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_3 : Ref sig .tc := ⟨.hbm, 19, rfl⟩
abbrev main_v9 : Ref sig .tc := ⟨.hbm, 20, rfl⟩
abbrev main_cst_4 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_5 : Ref sig .tc := ⟨.hbm, 26, rfl⟩
abbrev main_v14 : Ref sig .tc := ⟨.hbm, 27, rfl⟩
abbrev main_v15 : Ref sig .tc := ⟨.hbm, 28, rfl⟩
abbrev main_cst_6 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_7 : Ref sig .tc := ⟨.hbm, 38, rfl⟩
abbrev main_v24 : Ref sig .tc := ⟨.hbm, 39, rfl⟩
abbrev main_v25 : Ref sig .tc := ⟨.hbm, 40, rfl⟩
abbrev main_cst_8 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c : Ref sig .tc := ⟨.hbm, 46, rfl⟩
abbrev main_v30 : Ref sig .tc := ⟨.hbm, 47, rfl⟩
abbrev main_v31 : Ref sig .tc := ⟨.hbm, 48, rfl⟩
abbrev main_c_9 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_10 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_11 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_c_12 : Ref sig .tc := ⟨.hbm, 64, rfl⟩
abbrev main_v44 : Ref sig .tc := ⟨.hbm, 65, rfl⟩
abbrev main_v45 : Ref sig .tc := ⟨.hbm, 66, rfl⟩
abbrev main_c_13 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_14 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_15 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_16 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩

abbrev nD : Nat := 1
abbrev τ : Topo := Topo.v7x

variable {F : FTy → Type} [FloatOps F]

class Facts₀ : Prop where
  reducesTo_S64x64x112x112_S64x64_d2_3 : S64x64x112x112.ReducesTo [2, 3] S64x64
  h_S_ : 0 < S_.numel
  bcast_S_S4x64 : S_.BroadcastsInDim S4x64 (![] : Fin 0 → Fin S4x64.rank)
  bcast_S64_S64x1_0 : S64.BroadcastsInDim S64x1 (![0] : Fin 1 → Fin S64x1.rank)
  bcast_S_S64 : S_.BroadcastsInDim S64 (![] : Fin 0 → Fin S64.rank)
  bcast_S_S4 : S_.BroadcastsInDim S4 (![] : Fin 0 → Fin S4.rank)
  bcast_S4_S4x1_0 : S4.BroadcastsInDim S4x1 (![0] : Fin 1 → Fin S4x1.rank)
  bcast_S_S4x1 : S_.BroadcastsInDim S4x1 (![] : Fin 0 → Fin S4x1.rank)
  bcast_S4x1_S4x64_0_1 : S4x1.BroadcastsInDim S4x64 (![0, 1] : Fin 2 → Fin S4x64.rank)
  bcast_S_S64x64 : S_.BroadcastsInDim S64x64 (![] : Fin 0 → Fin S64x64.rank)
  bcast_S64_S1x64_1 : S64.BroadcastsInDim S1x64 (![1] : Fin 1 → Fin S1x64.rank)
  bcast_S_S1x64 : S_.BroadcastsInDim S1x64 (![] : Fin 0 → Fin S1x64.rank)
  bcast_S1x64_S64x64_0_1 : S1x64.BroadcastsInDim S64x64 (![0, 1] : Fin 2 → Fin S64x64.rank)
  bcast_S64x64_S64x64x1x1_0_1 : S64x64.BroadcastsInDim S64x64x1x1 (![0, 1] : Fin 2 → Fin S64x64x1x1.rank)
  bcast_S64x64x1x1_S64x64x112x112_0_1_2_3 : S64x64x1x1.BroadcastsInDim S64x64x112x112 (![0, 1, 2, 3] : Fin 4 → Fin S64x64x112x112.rank)
  bcast_S64_S1x64x1x1_1 : S64.BroadcastsInDim S1x64x1x1 (![1] : Fin 1 → Fin S1x64x1x1.rank)
  bcast_S1x64x1x1_S64x64x112x112_0_1_2_3 : S1x64x1x1.BroadcastsInDim S64x64x112x112 (![0, 1, 2, 3] : Fin 4 → Fin S64x64x112x112.rank)
  scatter_S4x64_S64x1_S64x64_1_0_0_1_wf : ScatterDims.WF S4x64 S64x1 S64x64 [1] [0] [0] 1
  scatter_S4_S64x1_S64_n_0_0_1_wf : ScatterDims.WF S4 S64x1 S64 [] [0] [0] 1
  gather_S4x64_S64x1_S64x64_1_0_n_n_0_1_164_wf : GatherDims.WF S4x64 S64x1 S64x64 [1] [0] [] [0] [] 1 ![1, 64]

variable [Facts₀]

def scatter_S4x64_S64x1_S64x64_1_0_0_1 : ScatterDims S4x64 S64x1 S64x64 where
  updateWindowDims := [1]
  insertedWindowDims := [0]
  scatterDimsToOperandDims := [0]
  indexVectorDim := 1
  wf := scatter_S4x64_S64x1_S64x64_1_0_0_1_wf
def scatter_S4_S64x1_S64_n_0_0_1 : ScatterDims S4 S64x1 S64 where
  updateWindowDims := []
  insertedWindowDims := [0]
  scatterDimsToOperandDims := [0]
  indexVectorDim := 1
  wf := scatter_S4_S64x1_S64_n_0_0_1_wf
def gather_S4x64_S64x1_S64x64_1_0_n_n_0_1_164 : GatherDims S4x64 S64x1 S64x64 where
  offsetDims := [1]
  collapsedSliceDims := [0]
  operandBatchingDims := []
  startIndicesBatchingDims := []
  startIndexMap := [0]
  indexVectorDim := 1
  sliceSizes := ![1, 64]
  wf := gather_S4x64_S64x1_S64x64_1_0_n_n_0_1_164_wf

class Facts : Prop extends Facts₀ where

variable [Facts]
-- ==== Proof.Spec.lean ====
/-
  The two functions of the argument arrays that both programs compute, index by index, over the extended reals.

  `rowsSum x` is the per-(sample, channel) sum of a [64,64,112,112] array over its two spatial axes, as a double sum
  over the coordinates `h` and `w`. `normSpec x mu var w b` is the normalisation with an affine map,
  `((x - mu) * rsqrt (var + eps)) * w + b`, where `mu` and `var` depend on (sample, channel) and `w`, `b` on the channel;
  `eps` is the f32 word both programs carry.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

abbrev X4 : Shape := ⟨4, ![64, 64, 112, 112]⟩
abbrev X2 : Shape := ⟨2, ![64, 64]⟩
abbrev X1 : Shape := ⟨1, ![64]⟩

/-- The (sample, channel) pair of a rank-2 index, as an index of the rank-2 statistics arrays. -/
abbrev bc (i : X4.Idx) : X2.Idx := ix2 (⟨(i 0).val, (i 0).isLt⟩ : Fin 64) (⟨(i 1).val, (i 1).isLt⟩ : Fin 64)
/-- The channel of an index, as an index of the per-channel arrays. -/
abbrev ch (i : X4.Idx) : X1.Idx := ix1 (⟨(i 1).val, (i 1).isLt⟩ : Fin 64)

/-- The sum over the two spatial axes at (sample, channel) `j`. -/
def rowsSum (x : X4.Idx → EReal) (j : X2.Idx) : EReal :=
  ∑ h : Fin 112, ∑ w : Fin 112, x (ix4 (⟨(j 0).val, (j 0).isLt⟩ : Fin 64) (⟨(j 1).val, (j 1).isLt⟩ : Fin 64) h w)

/-- The input's squares, entry by entry. -/
def sq (x : X4.Idx → EReal) (i : X4.Idx) : EReal := x i * x i

/-- Normalise by per-(sample, channel) statistics, then scale and shift per channel. -/
def normSpec (x : X4.Idx → EReal) (mu var : X2.Idx → EReal) (w b : X1.Idx → EReal) (i : X4.Idx) : EReal :=
  (x i - mu (bc i)) * Ideal.rsqrt (var (bc i) + Ideal.ofBits .f32 0x3727C5AC#32) * w (ch i) + b (ch i)

end Cert.Spec

end
-- ==== Proof.Region0.lean ====
/-
  Region 0 of the kernel (the reduction): what its two result arrays hold when the region ends, at the ideal instance.
  At a grid point (i, h) the body resets both result blocks to zero when h = 0, then adds to each entry (b, ch) of the
  first the input block's sum over its two spatial axes, and to the second the same sum of the squares. So after the last
  of the seven points of batch block i the first block holds, at (b, ch), zero plus the sum over k < 7, r < 16, w < 112 of
  the input at (8i + b, ch, 16k + r, w): the sum over all 112 rows, re-indexed by row = 16k + r. That point writes the
  block back, and the eight such blocks tile the result arrays.
-/
import proofs.«124204_j38560216383790_1_alg».proof.Proof.Gen.KernelIdeal.Frame
import proofs.«124204_j38560216383790_1_alg».proof.Proof.Spec
import Idealize.ShloMosaic.Lib.Pipeline.Value
import Idealize.ShloMosaic.Lib.Tactic

noncomputable section

namespace Cert.KernelIdeal.Region0

open Cert.KernelIdeal Cert.KernelIdeal.Gen Cert.Spec
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

section Pieces

variable {F : FTy → Type} [FloatOps F]

theorem zeros2 : (![0, 0] : Fin 2 → Nat) = fun _ => 0 := funext fun a => by fin_cases a <;> rfl
theorem zeros4 : (![0, 0, 0, 0] : Fin 4 → Nat) = fun _ => 0 := funext fun a => by fin_cases a <;> rfl

/-- At a point that resets, the first result's block is left at the update of the zero block by the input block. -/
theorem piece_reset_sum (c : Dev nD) (i : grid0.Coords) (a2 : Memref sig .tc .vmem S8x64x16x112 .f32) (h2 : a2.IsWhole)
    (a3 : Memref sig .tc .vmem S8x64 .f32) (h3 : a3.IsWhole) (a4 : Memref sig .tc .vmem S8x64 .f32) (h4 : a4.IsWhole)
    (hc : cond0_0 i) (x0 : Vec F S8x64x16x112 .f32) :
    out0_A_1 c i a2 h2 a3 h3 a4 h4 hc x0 = k0_pay3 x0 (k0_pay1 (F := F)) := by
  unfold out0_A_1
  rw [View.read_writes_eq_canon _ _ _ (cover0_A_1 c i a2 h2 a3 h3 a4 h4 hc x0)]
  unfold kernelRun0_A
  dsimp only
  sl_unfold_words
  rw [View.canon_cons_unit_zero (S := S8x64) zeros2, View.readCov_unit_zero (S := S8x64) _ zeros2]
  simp only [View.readAt_eq_ld, h2.read_unread, View.ld_unit_zero (S := S8x64x16x112) zeros4]

/-- At a point that resets, the second result's block is left at the update of the zero block by the input block's squares. -/
theorem piece_reset_sumsq (c : Dev nD) (i : grid0.Coords) (a2 : Memref sig .tc .vmem S8x64x16x112 .f32) (h2 : a2.IsWhole)
    (a3 : Memref sig .tc .vmem S8x64 .f32) (h3 : a3.IsWhole) (a4 : Memref sig .tc .vmem S8x64 .f32) (h4 : a4.IsWhole)
    (hc : cond0_0 i) (x0 : Vec F S8x64x16x112 .f32) :
    out0_A_2 c i a2 h2 a3 h3 a4 h4 hc x0 = k0_pay4 x0 (k0_pay2 (F := F)) := by
  unfold out0_A_2
  rw [View.read_writes_eq_canon _ _ _ (cover0_A_2 c i a2 h2 a3 h3 a4 h4 hc x0)]
  unfold kernelRun0_A
  dsimp only
  sl_unfold_words
  rw [View.canon_cons_unit_zero (S := S8x64) zeros2, View.readCov_unit_zero (S := S8x64) _ zeros2]
  simp only [View.readAt_eq_ld, h2.read_unread, View.ld_unit_zero (S := S8x64x16x112) zeros4]

/-- At any other point, the first result's block is left at the update of its running contents by the input block. -/
theorem piece_step_sum (c : Dev nD) (i : grid0.Coords) (a2 : Memref sig .tc .vmem S8x64x16x112 .f32) (h2 : a2.IsWhole)
    (a3 : Memref sig .tc .vmem S8x64 .f32) (h3 : a3.IsWhole) (a4 : Memref sig .tc .vmem S8x64 .f32) (h4 : a4.IsWhole)
    (hc : ¬cond0_0 i) (x0 : Vec F S8x64x16x112 .f32) (xo1 xo2 : Vec F S8x64 .f32) :
    out0_B_1 c i a2 h2 a3 h3 a4 h4 hc x0 xo1 xo2 = k0_pay3 x0 xo1 := by
  unfold out0_B_1
  rw [View.read_writes_eq_canon _ _ _ (cover0_B_1 c i a2 h2 a3 h3 a4 h4 hc x0 xo1 xo2)]
  unfold kernelRun0_B
  dsimp only
  sl_unfold_words
  rw [View.canon_unit_zero (S := S8x64) zeros2]
  simp only [View.readAt_eq_ld, h2.read_unread, h3.read_unread, View.ld_unit_zero (S := S8x64x16x112) zeros4,
    View.ld_unit_zero (S := S8x64) zeros2]

/-- At any other point, the second result's block is left at the update of its running contents by the input block's squares. -/
theorem piece_step_sumsq (c : Dev nD) (i : grid0.Coords) (a2 : Memref sig .tc .vmem S8x64x16x112 .f32) (h2 : a2.IsWhole)
    (a3 : Memref sig .tc .vmem S8x64 .f32) (h3 : a3.IsWhole) (a4 : Memref sig .tc .vmem S8x64 .f32) (h4 : a4.IsWhole)
    (hc : ¬cond0_0 i) (x0 : Vec F S8x64x16x112 .f32) (xo1 xo2 : Vec F S8x64 .f32) :
    out0_B_2 c i a2 h2 a3 h3 a4 h4 hc x0 xo1 xo2 = k0_pay4 x0 xo2 := by
  unfold out0_B_2
  rw [View.read_writes_eq_canon _ _ _ (cover0_B_2 c i a2 h2 a3 h3 a4 h4 hc x0 xo1 xo2)]
  unfold kernelRun0_B
  dsimp only
  sl_unfold_words
  rw [View.canon_unit_zero (S := S8x64) zeros2]
  simp only [View.readAt_eq_ld, h2.read_unread, h4.read_unread, View.ld_unit_zero (S := S8x64x16x112) zeros4,
    View.ld_unit_zero (S := S8x64) zeros2]

end Pieces

section Payloads

/-- The zero block of the first result holds the extended real zero. -/
theorem zero_sum_apply (j : S8x64.Idx) : k0_pay1 (F := Ideal) j = 0 := Ideal.ofBits_zero_f32

/-- The zero block of the second result holds the extended real zero. -/
theorem zero_sumsq_apply (j : S8x64.Idx) : k0_pay2 (F := Ideal) j = 0 := Ideal.ofBits_zero_f32

/-- The first result's update at (sample b, channel ch) of its block: the running entry plus the sum of the input block over
    its two spatial axes. -/
theorem pay_sum_apply (xb : Vec Ideal S8x64x16x112 .f32) (acc : Vec Ideal S8x64 .f32) (b : Fin 8) (ch : Fin 64) :
    k0_pay3 (F := Ideal) xb acc (ix2 b ch) = acc (ix2 b ch) + ∑ r : Fin 16, ∑ w : Fin 112, xb (ix4 b ch r w) := by
  unfold k0_pay3
  refine (addf_apply _ _ _).trans ?_
  refine congrArg₂ (· + ·) (congrFun (shapeCast_self acc _) _) ?_
  refine (Ideal.multiReduction_add_single _ _ _ _ _ _).trans ?_
  refine Finset.sum_congr rfl fun r _ => ?_
  refine (Ideal.multiReduction_add_single _ _ _ _ _ _).trans ?_
  refine Finset.sum_congr rfl fun w _ => ?_
  refine congrArg xb (funext fun a => Fin.ext ?_)
  match a with
  | ⟨0, _⟩ => rfl
  | ⟨1, _⟩ => rfl
  | ⟨2, _⟩ => rfl
  | ⟨3, _⟩ => rfl

/-- The second result's update likewise, over the input block's squares. -/
theorem pay_sumsq_apply (xb : Vec Ideal S8x64x16x112 .f32) (acc : Vec Ideal S8x64 .f32) (b : Fin 8) (ch : Fin 64) :
    k0_pay4 (F := Ideal) xb acc (ix2 b ch)
      = acc (ix2 b ch) + ∑ r : Fin 16, ∑ w : Fin 112, xb (ix4 b ch r w) * xb (ix4 b ch r w) := by
  unfold k0_pay4
  refine (addf_apply _ _ _).trans ?_
  refine congrArg₂ (· + ·) (congrFun (shapeCast_self acc _) _) ?_
  refine (Ideal.multiReduction_add_single _ _ _ _ _ _).trans ?_
  refine Finset.sum_congr rfl fun r _ => ?_
  refine (Ideal.multiReduction_add_single _ _ _ _ _ _).trans ?_
  refine Finset.sum_congr rfl fun w _ => ?_
  refine (mulf_apply _ _ _).trans ?_
  have e : ∀ (p q : S8x64x16x112.Idx), p = q → xb p * xb p = xb q * xb q := fun p q h => by rw [h]
  refine e _ _ (funext fun a => Fin.ext ?_)
  match a with
  | ⟨0, _⟩ => rfl
  | ⟨1, _⟩ => rfl
  | ⟨2, _⟩ => rfl
  | ⟨3, _⟩ => rfl

end Payloads

section Blocks

/-- The input array as the region finds it. -/
abbrev xarr (c : Dev nD) : Vec Ideal S64x64x112x112 .f32 := V c main_arg0

/-- The input's block at a grid point. -/
abbrev xblk (c : Dev nD) (t : Fin cfg0.N) : Vec Ideal S8x64x16x112 .f32 := iblk0 V c 0 t

/-- Point t = 7·i + h reads the input's block (i, 0, h, 0). -/
theorem xwin_index : ∀ t : Fin cfg0.N, win0_0.index t (0 : Fin 4) = t.val / 7 ∧ win0_0.index t (1 : Fin 4) = 0
    ∧ win0_0.index t (2 : Fin 4) = t.val % 7 ∧ win0_0.index t (3 : Fin 4) = 0 :=
  (by decide +kernel : ∀ t : Fin grid0.N, _)

/-- The input's block at point t, at (b, ch, r, w), is the input at (8·(t/7) + b, ch, 16·(t%7) + r, w). -/
theorem xblk_apply (c : Dev nD) (t : Fin cfg0.N) (b : Fin 8) (ch : Fin 64) (r : Fin 16) (w : Fin 112)
    (B : Fin 64) (R : Fin 112) (hB : B.val = 8 * (t.val / 7) + b.val) (hR : R.val = 16 * (t.val % 7) + r.val) :
    xblk V c t (ix4 b ch r w) = xarr V c (ix4 B ch R w) := by
  obtain ⟨e0, e1, e2, e3⟩ := xwin_index t
  unfold xblk iblk0
  rw [View.read_apply]
  show V c main_arg0 _ = V c main_arg0 _
  congr 1
  funext a
  apply Fin.ext
  match a with
  | ⟨0, _⟩ => show win0_0.index t 0 * 8 + 1 * b.val = B.val; rw [e0]; omega
  | ⟨1, _⟩ => show win0_0.index t 1 * 64 + 1 * ch.val = ch.val; rw [e1]; omega
  | ⟨2, _⟩ => show win0_0.index t 2 * 16 + 1 * r.val = R.val; rw [e2]; omega
  | ⟨3, _⟩ => show win0_0.index t 3 * 112 + 1 * w.val = w.val; rw [e3]; omega

end Blocks

section Fold

/-- The first result's block after the body at point n. -/
abbrev sumAt (c : Dev nD) (n : Nat) (h : n < cfg0.N) : S8x64.Idx → EReal := (outsAt0 V c n h).1

/-- The second result's block after the body at point n. -/
abbrev sumsqAt (c : Dev nD) (n : Nat) (h : n < cfg0.N) : S8x64.Idx → EReal := (outsAt0 V c n h).2

/-- What point n adds to the first result's block at j: the input's block there summed over its spatial axes
    (zero past the grid, where it is never used). -/
def addSum (c : Dev nD) (n : Nat) (j : S8x64.Idx) : EReal :=
  if h : n < cfg0.N then
    ∑ r : Fin 16, ∑ w : Fin 112, xblk V c ⟨n, h⟩ (ix4 (⟨(j 0).val, (j 0).isLt⟩ : Fin 8) (⟨(j 1).val, (j 1).isLt⟩ : Fin 64) r w)
  else 0

/-- What point n adds to the second result's block at j: the same sum of the squares. -/
def addSumsq (c : Dev nD) (n : Nat) (j : S8x64.Idx) : EReal :=
  if h : n < cfg0.N then
    ∑ r : Fin 16, ∑ w : Fin 112,
      xblk V c ⟨n, h⟩ (ix4 (⟨(j 0).val, (j 0).isLt⟩ : Fin 8) (⟨(j 1).val, (j 1).isLt⟩ : Fin 64) r w)
        * xblk V c ⟨n, h⟩ (ix4 (⟨(j 0).val, (j 0).isLt⟩ : Fin 8) (⟨(j 1).val, (j 1).isLt⟩ : Fin 64) r w)
  else 0

theorem update_sum (c : Dev nD) (n : Nat) (h : n < cfg0.N) (acc : Vec Ideal S8x64 .f32) (j : S8x64.Idx) :
    k0_pay3 (F := Ideal) (xblk V c ⟨n, h⟩) acc j = acc j + addSum V c n j := by
  obtain ⟨b, ch, rfl⟩ : ∃ (b : Fin 8) (ch : Fin 64), j = ix2 b ch := ⟨j 0, j 1, eq_ix2 j⟩
  refine (pay_sum_apply (xblk V c ⟨n, h⟩) acc b ch).trans ?_
  unfold addSum
  rw [dif_pos h]

theorem update_sumsq (c : Dev nD) (n : Nat) (h : n < cfg0.N) (acc : Vec Ideal S8x64 .f32) (j : S8x64.Idx) :
    k0_pay4 (F := Ideal) (xblk V c ⟨n, h⟩) acc j = acc j + addSumsq V c n j := by
  obtain ⟨b, ch, rfl⟩ : ∃ (b : Fin 8) (ch : Fin 64), j = ix2 b ch := ⟨j 0, j 1, eq_ix2 j⟩
  refine (pay_sumsq_apply (xblk V c ⟨n, h⟩) acc b ch).trans ?_
  unfold addSumsq
  rw [dif_pos h]

theorem sumAt_reset (c : Dev nD) (n : Nat) (h : n < cfg0.N) (h0 : n % 7 = 0) :
    sumAt V c n h = k0_pay3 (F := Ideal) (xblk V c ⟨n, h⟩) (k0_pay1 (F := Ideal)) := by
  show (outsAt0 V c n h).1 = _
  rw [outsAt0_A V c ⟨n, h⟩ h0]
  dsimp only
  exact piece_reset_sum (F := Ideal) c (grid0.coords ⟨n, h⟩) (ms0_0 ⟨n, h⟩) (hs0_0 ⟨n, h⟩) (ms0_1 ⟨n, h⟩) (hs0_1 ⟨n, h⟩)
    (ms0_2 ⟨n, h⟩) (hs0_2 ⟨n, h⟩) ((hcond0_0 ⟨n, h⟩).mpr h0) (iblk0 V c 0 ⟨n, h⟩)

theorem sumsqAt_reset (c : Dev nD) (n : Nat) (h : n < cfg0.N) (h0 : n % 7 = 0) :
    sumsqAt V c n h = k0_pay4 (F := Ideal) (xblk V c ⟨n, h⟩) (k0_pay2 (F := Ideal)) := by
  show (outsAt0 V c n h).2 = _
  rw [outsAt0_A V c ⟨n, h⟩ h0]
  dsimp only
  exact piece_reset_sumsq (F := Ideal) c (grid0.coords ⟨n, h⟩) (ms0_0 ⟨n, h⟩) (hs0_0 ⟨n, h⟩) (ms0_1 ⟨n, h⟩) (hs0_1 ⟨n, h⟩)
    (ms0_2 ⟨n, h⟩) (hs0_2 ⟨n, h⟩) ((hcond0_0 ⟨n, h⟩).mpr h0) (iblk0 V c 0 ⟨n, h⟩)

theorem sumAt_step (c : Dev nD) (n : Nat) (h : n + 1 < cfg0.N) (h0 : ¬(n + 1) % 7 = 0) :
    sumAt V c (n + 1) h = k0_pay3 (F := Ideal) (xblk V c ⟨n + 1, h⟩) (sumAt V c n (Nat.lt_of_succ_lt h)) := by
  show (outsAt0 V c (n + 1) h).1 = _
  rw [outsAt0_B V c ⟨n + 1, h⟩ h0]
  dsimp only
  exact piece_step_sum (F := Ideal) c (grid0.coords ⟨n + 1, h⟩) (ms0_0 ⟨n + 1, h⟩) (hs0_0 ⟨n + 1, h⟩) (ms0_1 ⟨n + 1, h⟩)
    (hs0_1 ⟨n + 1, h⟩) (ms0_2 ⟨n + 1, h⟩) (hs0_2 ⟨n + 1, h⟩) (fun hh => h0 ((hcond0_0 ⟨n + 1, h⟩).mp hh)) (iblk0 V c 0 ⟨n + 1, h⟩)
    (outsAt0 V c n (Nat.lt_of_succ_lt h)).1 (outsAt0 V c n (Nat.lt_of_succ_lt h)).2

theorem sumsqAt_step (c : Dev nD) (n : Nat) (h : n + 1 < cfg0.N) (h0 : ¬(n + 1) % 7 = 0) :
    sumsqAt V c (n + 1) h = k0_pay4 (F := Ideal) (xblk V c ⟨n + 1, h⟩) (sumsqAt V c n (Nat.lt_of_succ_lt h)) := by
  show (outsAt0 V c (n + 1) h).2 = _
  rw [outsAt0_B V c ⟨n + 1, h⟩ h0]
  dsimp only
  exact piece_step_sumsq (F := Ideal) c (grid0.coords ⟨n + 1, h⟩) (ms0_0 ⟨n + 1, h⟩) (hs0_0 ⟨n + 1, h⟩) (ms0_1 ⟨n + 1, h⟩)
    (hs0_1 ⟨n + 1, h⟩) (ms0_2 ⟨n + 1, h⟩) (hs0_2 ⟨n + 1, h⟩) (fun hh => h0 ((hcond0_0 ⟨n + 1, h⟩).mp hh)) (iblk0 V c 0 ⟨n + 1, h⟩)
    (outsAt0 V c n (Nat.lt_of_succ_lt h)).1 (outsAt0 V c n (Nat.lt_of_succ_lt h)).2

end Fold

section Closed

/-- After point t the first result's block holds the addends of the points of t's run of seven, from its first up to t. -/
theorem sumAt_fold (c : Dev nD) (t : Nat) (ht : t < cfg0.N) (j : S8x64.Idx) :
    sumAt V c t ht j = 0 + ∑ s ∈ Finset.range (t % 7 + 1), addSum V c (7 * (t / 7) + s) j := by
  have h' : 7 * (t / 7) + t % 7 < cfg0.N := by omega
  rw [Pipeline.eq_accAt_of_mod (sumAt V c) 7
      (fun n h => k0_pay3 (F := Ideal) (xblk V c ⟨n, h⟩) (k0_pay1 (F := Ideal)))
      (fun n h acc => k0_pay3 (F := Ideal) (xblk V c ⟨n, h⟩) acc)
      (sumAt_reset V c) (sumAt_step V c) (by omega) t ht h']
  exact Pipeline.accAt_add_apply _ _ (fun _ => (0 : EReal)) (addSum V c) (7 * (t / 7)) 6
    (fun h i => (update_sum V c _ h _ i).trans (congrArg (· + addSum V c (7 * (t / 7)) i) (zero_sum_apply i)))
    (fun n h acc i _ _ => update_sum V c n h acc i) (t % 7) (by omega) h' j

/-- Likewise the second result's block. -/
theorem sumsqAt_fold (c : Dev nD) (t : Nat) (ht : t < cfg0.N) (j : S8x64.Idx) :
    sumsqAt V c t ht j = 0 + ∑ s ∈ Finset.range (t % 7 + 1), addSumsq V c (7 * (t / 7) + s) j := by
  have h' : 7 * (t / 7) + t % 7 < cfg0.N := by omega
  rw [Pipeline.eq_accAt_of_mod (sumsqAt V c) 7
      (fun n h => k0_pay4 (F := Ideal) (xblk V c ⟨n, h⟩) (k0_pay2 (F := Ideal)))
      (fun n h acc => k0_pay4 (F := Ideal) (xblk V c ⟨n, h⟩) acc)
      (sumsqAt_reset V c) (sumsqAt_step V c) (by omega) t ht h']
  exact Pipeline.accAt_add_apply _ _ (fun _ => (0 : EReal)) (addSumsq V c) (7 * (t / 7)) 6
    (fun h i => (update_sumsq V c _ h _ i).trans (congrArg (· + addSumsq V c (7 * (t / 7)) i) (zero_sumsq_apply i)))
    (fun n h acc i _ _ => update_sumsq V c n h acc i) (t % 7) (by omega) h' j

/-- The seven addends of batch block q, at (b, ch), are the input's rows of sample 8q + b and channel ch: row 16k + r is
    row r of the block of point 7q + k. -/
theorem fold_rows (c : Dev nD) (q : Nat) (hq : q < 8) (b : Fin 8) (ch : Fin 64) (B : Fin 64) (hB : B.val = 8 * q + b.val) :
    ∑ s ∈ Finset.range 7, addSum V c (7 * q + s) (ix2 b ch) = rowsSum (xarr V c) (ix2 B ch) := by
  have hN : cfg0.N = 56 := N_0
  rw [Finset.sum_range]
  unfold rowsSum
  refine Eq.trans ?_ ((finProdFinEquiv : Fin 7 × Fin 16 ≃ Fin 112).sum_comp _)
  rw [Fintype.sum_prod_type]
  refine Finset.sum_congr rfl fun k _ => ?_
  have hk : 7 * q + k.val < cfg0.N := by have := k.isLt; omega
  unfold addSum
  rw [dif_pos hk]
  refine Finset.sum_congr rfl fun r _ => Finset.sum_congr rfl fun w _ => ?_
  exact xblk_apply V c ⟨7 * q + k.val, hk⟩ b ch r w B (finProdFinEquiv (k, r))
    (by show B.val = 8 * ((7 * q + k.val) / 7) + b.val; have := k.isLt; omega)
    (by rw [finProdFinEquiv_apply_val]; show r.val + 16 * k.val = 16 * ((7 * q + k.val) % 7) + r.val; have := k.isLt; omega)

/-- Likewise for the squares. -/
theorem fold_rows_sq (c : Dev nD) (q : Nat) (hq : q < 8) (b : Fin 8) (ch : Fin 64) (B : Fin 64) (hB : B.val = 8 * q + b.val) :
    ∑ s ∈ Finset.range 7, addSumsq V c (7 * q + s) (ix2 b ch) = rowsSum (Cert.Spec.sq (xarr V c)) (ix2 B ch) := by
  have hN : cfg0.N = 56 := N_0
  rw [Finset.sum_range]
  unfold rowsSum
  refine Eq.trans ?_ ((finProdFinEquiv : Fin 7 × Fin 16 ≃ Fin 112).sum_comp _)
  rw [Fintype.sum_prod_type]
  refine Finset.sum_congr rfl fun k _ => ?_
  have hk : 7 * q + k.val < cfg0.N := by have := k.isLt; omega
  unfold addSumsq
  rw [dif_pos hk]
  refine Finset.sum_congr rfl fun r _ => Finset.sum_congr rfl fun w _ => ?_
  unfold Cert.Spec.sq
  rw [xblk_apply V c ⟨7 * q + k.val, hk⟩ b ch r w B (finProdFinEquiv (k, r))
    (by show B.val = 8 * ((7 * q + k.val) / 7) + b.val; have := k.isLt; omega)
    (by rw [finProdFinEquiv_apply_val]; show r.val + 16 * k.val = 16 * ((7 * q + k.val) % 7) + r.val; have := k.isLt; omega)]

/-- At the last point of a run of seven the first result's block holds the input's sums over the spatial axes. -/
theorem sum_last (c : Dev nD) (t : Fin cfg0.N) (h6 : t.val % 7 = 6) (b : Fin 8) (ch : Fin 64) (B : Fin 64)
    (hB : B.val = 8 * (t.val / 7) + b.val) :
    sumAt V c t.val t.isLt (ix2 b ch) = rowsSum (xarr V c) (ix2 B ch) := by
  have hN : cfg0.N = 56 := N_0
  have hlt := t.isLt
  rw [sumAt_fold V c t.val t.isLt (ix2 b ch), zero_add, h6]
  exact fold_rows V c (t.val / 7) (by omega) b ch B hB

/-- And the second result's block the sums of the squares. -/
theorem sumsq_last (c : Dev nD) (t : Fin cfg0.N) (h6 : t.val % 7 = 6) (b : Fin 8) (ch : Fin 64) (B : Fin 64)
    (hB : B.val = 8 * (t.val / 7) + b.val) :
    sumsqAt V c t.val t.isLt (ix2 b ch) = rowsSum (Cert.Spec.sq (xarr V c)) (ix2 B ch) := by
  have hN : cfg0.N = 56 := N_0
  have hlt := t.isLt
  rw [sumsqAt_fold V c t.val t.isLt (ix2 b ch), zero_add, h6]
  exact fold_rows_sq V c (t.val / 7) (by omega) b ch B hB

end Closed

section Final

/-- Point t = 7·i + h holds the results' blocks (i, 0). -/
theorem ywin_index : ∀ t : Fin cfg0.N, win0_1.index t (0 : Fin 2) = t.val / 7 ∧ win0_1.index t (1 : Fin 2) = 0
    ∧ win0_2.index t (0 : Fin 2) = t.val / 7 ∧ win0_2.index t (1 : Fin 2) = 0 :=
  (by decide +kernel : ∀ t : Fin grid0.N, _)

/-- An index of the first result is in point t's block iff each coordinate is in the block's range on its axis. -/
theorem mem_blk_sum (t : Fin cfg0.N) (i : S64x64.Idx) :
    i ∈ ((cfg0.win 1).blk t).view.set
      ↔ ∀ a : Fin 2, win0_1.index t a * S8x64.size a ≤ (i a).val ∧ (i a).val < win0_1.index t a * S8x64.size a + S8x64.size a := by
  show i ∈ ((View.whole main_v0_0).slice (win0_1.rect t)).set ↔ _
  rw [View.set_slice_whole, Rect.mem_set_unit]
  exact Iff.rfl

/-- Likewise the second result. -/
theorem mem_blk_sumsq (t : Fin cfg0.N) (i : S64x64.Idx) :
    i ∈ ((cfg0.win 2).blk t).view.set
      ↔ ∀ a : Fin 2, win0_2.index t a * S8x64.size a ≤ (i a).val ∧ (i a).val < win0_2.index t a * S8x64.size a + S8x64.size a := by
  show i ∈ ((View.whole main_v0_1).slice (win0_2.rect t)).set ↔ _
  rw [View.set_slice_whole, Rect.mem_set_unit]
  exact Iff.rfl

/-- What a point writes back of the first result is its block of the input's sums over the spatial axes. -/
theorem sum_flushed (c : Dev nD) (t : Fin cfg0.N) (hf : (cfg0.win 1).flush t = true) :
    (dat0 (F := Ideal) V c).flushed 1 t = ((cfg0.win 1).blk t).view.read (Elt Ideal) (rowsSum (V c main_arg0)) := by
  have hN : cfg0.N = 56 := N_0
  have hlt := t.isLt
  have h6 : t.val % 7 = 6 := (flush0_1 t).mp hf
  obtain ⟨e0, e1, -, -⟩ := ywin_index t
  show (cfg0.win 1).cut (grid0.coords t) ((dat0 V c).after 1 t) = _
  rw [after0_1]
  funext y
  obtain ⟨b, ch, rfl⟩ : ∃ (b : Fin 8) (ch : Fin 64), y = ix2 b ch := ⟨y 0, y 1, eq_ix2 y⟩
  rw [View.read_apply]
  have hin : (cfg0.win 1).xinj (grid0.coords t) (ix2 b ch) = (ix2 b ch : S8x64.Idx) :=
    funext fun a => by match a with | ⟨0, _⟩ => rfl | ⟨1, _⟩ => rfl
  have hemb : ((cfg0.win 1).blk t).view.emb (ix2 b ch)
      = (ix2 (⟨8 * (t.val / 7) + b.val, by have := b.isLt; omega⟩ : Fin 64) ch : S64x64.Idx) :=
    funext fun a => Fin.ext (by
      match a with
      | ⟨0, _⟩ => show win0_1.index t 0 * 8 + 1 * b.val = 8 * (t.val / 7) + b.val; rw [e0]; omega
      | ⟨1, _⟩ => show win0_1.index t 1 * 64 + 1 * ch.val = ch.val; rw [e1]; omega)
  show sumAt V c t.val t.isLt ((cfg0.win 1).xinj (grid0.coords t) (ix2 b ch))
    = rowsSum (xarr V c) (((cfg0.win 1).blk t).view.emb (ix2 b ch))
  rw [hin, hemb]
  exact sum_last V c t h6 b ch _ rfl

/-- What a point writes back of the second result is its block of the sums of the input's squares. -/
theorem sumsq_flushed (c : Dev nD) (t : Fin cfg0.N) (hf : (cfg0.win 2).flush t = true) :
    (dat0 (F := Ideal) V c).flushed 2 t
      = ((cfg0.win 2).blk t).view.read (Elt Ideal) (rowsSum (Cert.Spec.sq (V c main_arg0))) := by
  have hN : cfg0.N = 56 := N_0
  have hlt := t.isLt
  have h6 : t.val % 7 = 6 := (flush0_2 t).mp hf
  obtain ⟨-, -, e0, e1⟩ := ywin_index t
  show (cfg0.win 2).cut (grid0.coords t) ((dat0 V c).after 2 t) = _
  rw [after0_2]
  funext y
  obtain ⟨b, ch, rfl⟩ : ∃ (b : Fin 8) (ch : Fin 64), y = ix2 b ch := ⟨y 0, y 1, eq_ix2 y⟩
  rw [View.read_apply]
  have hin : (cfg0.win 2).xinj (grid0.coords t) (ix2 b ch) = (ix2 b ch : S8x64.Idx) :=
    funext fun a => by match a with | ⟨0, _⟩ => rfl | ⟨1, _⟩ => rfl
  have hemb : ((cfg0.win 2).blk t).view.emb (ix2 b ch)
      = (ix2 (⟨8 * (t.val / 7) + b.val, by have := b.isLt; omega⟩ : Fin 64) ch : S64x64.Idx) :=
    funext fun a => Fin.ext (by
      match a with
      | ⟨0, _⟩ => show win0_2.index t 0 * 8 + 1 * b.val = 8 * (t.val / 7) + b.val; rw [e0]; omega
      | ⟨1, _⟩ => show win0_2.index t 1 * 64 + 1 * ch.val = ch.val; rw [e1]; omega)
  show sumsqAt V c t.val t.isLt ((cfg0.win 2).xinj (grid0.coords t) (ix2 b ch))
    = rowsSum (Cert.Spec.sq (xarr V c)) (((cfg0.win 2).blk t).view.emb (ix2 b ch))
  rw [hin, hemb]
  exact sumsq_last V c t h6 b ch _ rfl

/-- Row i₀ of either result lies in the block written back at the last point of batch block i₀ / 8. -/
theorem sum_cover (i : S64x64.Idx) :
    ∃ t : Fin cfg0.N, (cfg0.win 1).flush t = true ∧ i ∈ ((cfg0.win 1).blk t).view.set := by
  have hN : cfg0.N = 56 := N_0
  have h0 : (i 0).val < 64 := (i 0).isLt
  have h1 : (i 1).val < 64 := (i 1).isLt
  have hb : 7 * ((i 0).val / 8) + 6 < cfg0.N := by omega
  obtain ⟨e0, e1, -, -⟩ := ywin_index ⟨7 * ((i 0).val / 8) + 6, hb⟩
  have ev : (⟨7 * ((i 0).val / 8) + 6, hb⟩ : Fin cfg0.N).val = 7 * ((i 0).val / 8) + 6 := rfl
  refine ⟨⟨7 * ((i 0).val / 8) + 6, hb⟩, (flush0_1 _).mpr (by rw [ev]; omega), ?_⟩
  rw [mem_blk_sum]
  intro a
  match a with
  | ⟨0, _⟩ =>
    show win0_1.index _ 0 * 8 ≤ (i 0).val ∧ (i 0).val < win0_1.index _ 0 * 8 + 8
    rw [e0, ev]; omega
  | ⟨1, _⟩ =>
    show win0_1.index _ 1 * 64 ≤ (i 1).val ∧ (i 1).val < win0_1.index _ 1 * 64 + 64
    rw [e1]; omega

theorem sumsq_cover (i : S64x64.Idx) :
    ∃ t : Fin cfg0.N, (cfg0.win 2).flush t = true ∧ i ∈ ((cfg0.win 2).blk t).view.set := by
  have hN : cfg0.N = 56 := N_0
  have h0 : (i 0).val < 64 := (i 0).isLt
  have h1 : (i 1).val < 64 := (i 1).isLt
  have hb : 7 * ((i 0).val / 8) + 6 < cfg0.N := by omega
  obtain ⟨-, -, e0, e1⟩ := ywin_index ⟨7 * ((i 0).val / 8) + 6, hb⟩
  have ev : (⟨7 * ((i 0).val / 8) + 6, hb⟩ : Fin cfg0.N).val = 7 * ((i 0).val / 8) + 6 := rfl
  refine ⟨⟨7 * ((i 0).val / 8) + 6, hb⟩, (flush0_2 _).mpr (by rw [ev]; omega), ?_⟩
  rw [mem_blk_sumsq]
  intro a
  match a with
  | ⟨0, _⟩ =>
    show win0_2.index _ 0 * 8 ≤ (i 0).val ∧ (i 0).val < win0_2.index _ 0 * 8 + 8
    rw [e0, ev]; omega
  | ⟨1, _⟩ =>
    show win0_2.index _ 1 * 64 ≤ (i 1).val ∧ (i 1).val < win0_2.index _ 1 * 64 + 64
    rw [e1]; omega

end Final

/-- The first result array ends at the per-(sample, channel) sum of the input over the spatial axes. -/
theorem sum_final (c : Dev nD) :
    (dat0 (F := Ideal) V c).arrAt 1 cfg0.N = rowsSum (V c main_arg0) :=
  (dat0 (F := Ideal) V c).arrAt_eq_of_cover 1 (rowsSum (V c main_arg0)) (sum_flushed V c) sum_cover

/-- The second result array ends at the same sum of the input's squares. -/
theorem sumsq_final (c : Dev nD) :
    (dat0 (F := Ideal) V c).arrAt 2 cfg0.N = rowsSum (sq (V c main_arg0)) :=
  (dat0 (F := Ideal) V c).arrAt_eq_of_cover 2 (rowsSum (Cert.Spec.sq (V c main_arg0))) (sumsq_flushed V c) sumsq_cover

end Cert.KernelIdeal.Region0

end
-- ==== Proof.Region1.lean ====
/-
  Region 1 of the kernel (the normalisation): what its result array holds when the region ends, at the ideal instance.
  The body's stored value is read at an index of its block; each input block is read where the result's rectangle
  says; every point writes its block back, and the blocks tile the array.
-/
import proofs.«124204_j38560216383790_1_alg».proof.Proof.Gen.KernelIdeal.Frame
import proofs.«124204_j38560216383790_1_alg».proof.Proof.Spec
import Idealize.ShloMosaic.Lib.Pipeline.Value
import Idealize.ShloMosaic.Lib.Tactic

noncomputable section

namespace Cert.KernelIdeal.Region1

open Cert.KernelIdeal Cert.KernelIdeal.Gen Cert.Spec
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! ## The body's arithmetic at an index of the block -/

/-- A [8,64,1,1] vector spread over the block reads, at (b, c, r, w), its entry (b, c, 0, 0). -/
theorem spread_stat (u : FVec Ideal S8x64x1x1 .f32) (h : S8x64x1x1.Broadcasts S8x64x16x112)
    (b' : Fin 8) (c : Fin 64) (r : Fin 16) (w : Fin 112) :
    broadcastTo S8x64x16x112 u h (ix4 b' c r w) = u (ix4 b' c (0 : Fin 1) (0 : Fin 1)) :=
  broadcastTo_apply u h (ix4 b' c r w) (ix4 b' c (0 : Fin 1) (0 : Fin 1))
    (fun a => match a with | ⟨0, _⟩ => rfl | ⟨1, _⟩ => rfl | ⟨2, _⟩ => rfl | ⟨3, _⟩ => rfl)

/-- A [1,64,1,1] vector spread over the block reads, at (b, c, r, w), its entry (0, c, 0, 0). -/
theorem spread_chan (u : FVec Ideal S1x64x1x1 .f32) (h : S1x64x1x1.Broadcasts S8x64x16x112)
    (b' : Fin 8) (c : Fin 64) (r : Fin 16) (w : Fin 112) :
    broadcastTo S8x64x16x112 u h (ix4 b' c r w) = u (ix4 (0 : Fin 1) c (0 : Fin 1) (0 : Fin 1)) :=
  broadcastTo_apply u h (ix4 b' c r w) (ix4 (0 : Fin 1) c (0 : Fin 1) (0 : Fin 1))
    (fun a => match a with | ⟨0, _⟩ => rfl | ⟨1, _⟩ => rfl | ⟨2, _⟩ => rfl | ⟨3, _⟩ => rfl)

/-- A [8,64] vector viewed [8,64,1,1] reads, at (b, c, 0, 0), its entry (b, c). -/
theorem view_stat (v : FVec Ideal S8x64 .f32) (h : S8x64.ShapeCasts S8x64x1x1) (b' : Fin 8) (c : Fin 64) :
    shapeCast S8x64x1x1 v h (ix4 b' c (0 : Fin 1) (0 : Fin 1)) = v (ix2 b' c) :=
  shapeCast_apply v h (ix4 b' c (0 : Fin 1) (0 : Fin 1)) (ix2 b' c) (by
    rw [Shape.rowMajor_val_two, Shape.rowMajor_val_four]
    show b'.val * 64 + c.val = ((b'.val * 64 + c.val) * 1 + 0) * 1 + 0
    omega)

/-- A [64] vector viewed [1,64,1,1] reads, at (0, c, 0, 0), its entry c. -/
theorem view_chan (v : FVec Ideal S64 .f32) (h : S64.ShapeCasts S1x64x1x1) (c : Fin 64) :
    shapeCast S1x64x1x1 v h (ix4 (0 : Fin 1) c (0 : Fin 1) (0 : Fin 1)) = v (ix1 c) :=
  shapeCast_apply v h (ix4 (0 : Fin 1) c (0 : Fin 1) (0 : Fin 1)) (ix1 c) (by
    rw [Shape.rowMajor_val_one, Shape.rowMajor_val_four]
    show c.val = ((0 * 64 + c.val) * 1 + 0) * 1 + 0
    omega)

/-- The stored value at (b, c, r, w) of the block: the input there, less the mean at (b, c), times the reciprocal root of
    the variance at (b, c) plus eps, times the weight at c, plus the bias at c. -/
theorem pay_apply (x0 : Vec Ideal S8x64x16x112 .f32) (x1 x2 : Vec Ideal S8x64 .f32) (x3 x4 : Vec Ideal S64 .f32)
    (b' : Fin 8) (c : Fin 64) (r : Fin 16) (w : Fin 112) :
    k1_pay1 x0 x1 x2 x3 x4 (ix4 b' c r w)
      = (x0 (ix4 b' c r w) - x1 (ix2 b' c)) * Ideal.rsqrt (x2 (ix2 b' c) + Ideal.ofBits .f32 0x3727C5AC#32)
          * x3 (ix1 c) + x4 (ix1 c) := by
  unfold k1_pay1
  rw [addf_apply, mulf_apply, mulf_apply, subf_apply, spread_stat, spread_stat, spread_chan, spread_chan,
    view_stat, view_chan, view_chan, shapeCast_self]
  show _ * Ideal.rsqrt (shapeCast S8x64x1x1 (shapeCast S8x64 x2 _) _ (ix4 b' c (0 : Fin 1) (0 : Fin 1)) + Ideal.ofBits .f32 0x3727C5AC#32) * _ + _ = _
  rw [view_stat, shapeCast_self]

/-! ## From the blocks to the array -/

/-- The normalisation at an index p, each array being read at an index that is p itself, p's (sample, channel) pair, or
    p's channel. -/
theorem normSpec_at (x : X4.Idx → EReal) (mu var : X2.Idx → EReal) (w b : X1.Idx → EReal)
    (p p0 : X4.Idx) (q1 q2 : X2.Idx) (k3 k4 : X1.Idx)
    (h0 : p0 = p) (h1 : q1 = bc p) (h2 : q2 = bc p) (h3 : k3 = ch p) (h4 : k4 = ch p) :
    (x p0 - mu q1) * Ideal.rsqrt (var q2 + Ideal.ofBits .f32 0x3727C5AC#32) * w k3 + b k4
      = normSpec x mu var w b p := by
  subst h0 h1 h2 h3 h4; rfl

theorem zero4 : (![0, 0, 0, 0] : Fin 4 → Nat) = fun _ => 0 := funext fun a => by fin_cases a <;> rfl
theorem zero2 : (![0, 0] : Fin 2 → Nat) = fun _ => 0 := funext fun a => by fin_cases a <;> rfl
theorem zero1 : (![0] : Fin 1 → Nat) = fun _ => 0 := funext fun a => by fin_cases a <;> rfl

/-- The block indices over the grid (8, 7): point t is at sample block t / 7 and row block t % 7; the input and the result
    move together, the statistics follow the sample block, and the per-channel arrays stay whole. -/
theorem block_indices : ∀ t : Fin cfg1.N,
    (win1_5.index t (0 : Fin 4) = t.val / 7 ∧ win1_5.index t (1 : Fin 4) = 0
      ∧ win1_5.index t (2 : Fin 4) = t.val % 7 ∧ win1_5.index t (3 : Fin 4) = 0)
    ∧ (win1_0.index t (0 : Fin 4) = t.val / 7 ∧ win1_0.index t (1 : Fin 4) = 0
      ∧ win1_0.index t (2 : Fin 4) = t.val % 7 ∧ win1_0.index t (3 : Fin 4) = 0)
    ∧ (win1_1.index t (0 : Fin 2) = t.val / 7 ∧ win1_1.index t (1 : Fin 2) = 0)
    ∧ (win1_2.index t (0 : Fin 2) = t.val / 7 ∧ win1_2.index t (1 : Fin 2) = 0)
    ∧ win1_3.index t (0 : Fin 1) = 0 ∧ win1_4.index t (0 : Fin 1) = 0 :=
  (by decide +kernel : ∀ t : Fin grid1.N, _)

/-- What point t writes back is block t of the normalisation of the arrays the region was entered with. -/
theorem flushed_eq (c : Dev nD) (t : Fin cfg1.N) :
    (dat1 (F := Ideal) V c).flushed 5 t = ((cfg1.win 5).blk t).view.read (Elt Ideal)
      (normSpec (V c main_arg0) (V c main_v41) (V c main_v55) (V c main_arg3) (V c main_arg4)) := by
  show (cfg1.win 5).cut (grid1.coords t) ((dat1 (F := Ideal) V c).after 5 t) = _
  rw [after1_5]
  unfold out1_5
  rw [View.canon_unit_zero zero4]
  simp only [View.ld_unit_zero (S := S8x64x16x112) zero4, View.ld_unit_zero (S := S8x64) zero2,
    View.ld_unit_zero (S := S64) zero1]
  funext j
  obtain ⟨b', cc, r, w, rfl⟩ : ∃ (b' : Fin 8) (cc : Fin 64) (r : Fin 16) (w : Fin 112), j = ix4 b' cc r w :=
    ⟨j 0, j 1, j 2, j 3, eq_ix4 j⟩
  refine (pay_apply _ _ _ _ _ b' cc r w).trans ?_
  obtain ⟨⟨o0, o1, o2, o3⟩, ⟨i0, i1, i2, i3⟩, ⟨m0, m1⟩, ⟨s0, s1⟩, g0, h0⟩ := block_indices t
  -- the input's entry sits where the result's does
  have hx : ((cfg1.win 0).blk t).view.emb (ix4 b' cc r w) = ((cfg1.win 5).blk t).view.emb (ix4 b' cc r w) := by
    funext a; apply Fin.ext
    match a with
    | ⟨0, _⟩ => show win1_0.index t (0 : Fin 4) * 8 + 1 * b'.val = win1_5.index t (0 : Fin 4) * 8 + 1 * b'.val; omega
    | ⟨1, _⟩ => show win1_0.index t (1 : Fin 4) * 64 + 1 * cc.val = win1_5.index t (1 : Fin 4) * 64 + 1 * cc.val; omega
    | ⟨2, _⟩ => show win1_0.index t (2 : Fin 4) * 16 + 1 * r.val = win1_5.index t (2 : Fin 4) * 16 + 1 * r.val; omega
    | ⟨3, _⟩ => show win1_0.index t (3 : Fin 4) * 112 + 1 * w.val = win1_5.index t (3 : Fin 4) * 112 + 1 * w.val; omega
  -- the two statistics' entries sit at its (sample, channel) pair
  have hm : ((cfg1.win 1).blk t).view.emb (ix2 b' cc) = bc (((cfg1.win 5).blk t).view.emb (ix4 b' cc r w)) := by
    funext a; apply Fin.ext
    match a with
    | ⟨0, _⟩ => show win1_1.index t (0 : Fin 2) * 8 + 1 * b'.val = win1_5.index t (0 : Fin 4) * 8 + 1 * b'.val; omega
    | ⟨1, _⟩ => show win1_1.index t (1 : Fin 2) * 64 + 1 * cc.val = win1_5.index t (1 : Fin 4) * 64 + 1 * cc.val; omega
  have hv : ((cfg1.win 2).blk t).view.emb (ix2 b' cc) = bc (((cfg1.win 5).blk t).view.emb (ix4 b' cc r w)) := by
    funext a; apply Fin.ext
    match a with
    | ⟨0, _⟩ => show win1_2.index t (0 : Fin 2) * 8 + 1 * b'.val = win1_5.index t (0 : Fin 4) * 8 + 1 * b'.val; omega
    | ⟨1, _⟩ => show win1_2.index t (1 : Fin 2) * 64 + 1 * cc.val = win1_5.index t (1 : Fin 4) * 64 + 1 * cc.val; omega
  -- the weight's and the bias's at its channel
  have hw : ((cfg1.win 3).blk t).view.emb (ix1 cc) = ch (((cfg1.win 5).blk t).view.emb (ix4 b' cc r w)) := by
    funext a; apply Fin.ext
    match a with
    | ⟨0, _⟩ => show win1_3.index t (0 : Fin 1) * 64 + 1 * cc.val = win1_5.index t (1 : Fin 4) * 64 + 1 * cc.val; omega
  have hb : ((cfg1.win 4).blk t).view.emb (ix1 cc) = ch (((cfg1.win 5).blk t).view.emb (ix4 b' cc r w)) := by
    funext a; apply Fin.ext
    match a with
    | ⟨0, _⟩ => show win1_4.index t (0 : Fin 1) * 64 + 1 * cc.val = win1_5.index t (1 : Fin 4) * 64 + 1 * cc.val; omega
  exact normSpec_at (V c main_arg0) (V c main_v41) (V c main_v55) (V c main_arg3) (V c main_arg4)
    (((cfg1.win 5).blk t).view.emb (ix4 b' cc r w)) _ _ _ _ _ hx hm hv hw hb

/-- An index of the array is in point t's block iff each coordinate is in the block's range on its axis. -/
theorem mem_blk (t : Fin cfg1.N) (i : X4.Idx) :
    i ∈ ((cfg1.win 5).blk t).view.set ↔ ∀ a : Fin 4, win1_5.index t a * S8x64x16x112.size a ≤ (i a).val
      ∧ (i a).val < win1_5.index t a * S8x64x16x112.size a + S8x64x16x112.size a := by
  show i ∈ ((View.whole main_v56).slice (win1_5.rect t)).set ↔ _
  rw [View.set_slice_whole, Rect.mem_set_unit]
  exact Iff.rfl

/-- The blocks tile the array: the index (b, c, h, w) is in the block of the point 7 (b / 8) + h / 16, which writes back. -/
theorem covered (i : X4.Idx) :
    ∃ t : Fin cfg1.N, (cfg1.win 5).flush t = true ∧ i ∈ ((cfg1.win 5).blk t).view.set := by
  have hN : cfg1.N = 56 := N_1
  have hi0 : (i 0).val < 64 := (i 0).isLt
  have hi1 : (i 1).val < 64 := (i 1).isLt
  have hi2 : (i 2).val < 112 := (i 2).isLt
  have hi3 : (i 3).val < 112 := (i 3).isLt
  obtain ⟨t, tv⟩ : ∃ t : Fin cfg1.N, t.val = 7 * ((i 0).val / 8) + (i 2).val / 16 :=
    ⟨⟨7 * ((i 0).val / 8) + (i 2).val / 16,
      Nat.lt_of_lt_of_eq (show 7 * ((i 0).val / 8) + (i 2).val / 16 < 56 by omega) hN.symm⟩, rfl⟩
  obtain ⟨⟨o0, o1, o2, o3⟩, -⟩ := block_indices t
  refine ⟨t, flush1_5 t, ?_⟩
  rw [mem_blk]
  intro a
  match a with
  | ⟨0, _⟩ => show win1_5.index t (0 : Fin 4) * 8 ≤ (i 0).val ∧ (i 0).val < win1_5.index t (0 : Fin 4) * 8 + 8; omega
  | ⟨1, _⟩ => show win1_5.index t (1 : Fin 4) * 64 ≤ (i 1).val ∧ (i 1).val < win1_5.index t (1 : Fin 4) * 64 + 64; omega
  | ⟨2, _⟩ => show win1_5.index t (2 : Fin 4) * 16 ≤ (i 2).val ∧ (i 2).val < win1_5.index t (2 : Fin 4) * 16 + 16; omega
  | ⟨3, _⟩ => show win1_5.index t (3 : Fin 4) * 112 ≤ (i 3).val ∧ (i 3).val < win1_5.index t (3 : Fin 4) * 112 + 112; omega

/-- The result array ends at the normalisation of the input by the two statistics arrays and the affine parameters the
    region was entered with. -/
theorem out_final (c : Dev nD) :
    (dat1 (F := Ideal) V c).arrAt 5 cfg1.N
      = normSpec (V c main_arg0) (V c main_v41) (V c main_v55) (V c main_arg3) (V c main_arg4) :=
  (dat1 (F := Ideal) V c).arrAt_eq_of_cover 5
    (normSpec (V c main_arg0) (V c main_v41) (V c main_v55) (V c main_arg3) (V c main_arg4))
    (fun t _ => flushed_eq V c t) covered

end Cert.KernelIdeal.Region1

end
-- ==== Proof.Stats.lean ====
/-
  The host arithmetic the two programs share, as functions of the per-(sample, channel) sums `s` (of x) and `q` (of x²),
  the cluster labels and the running statistics — written once, over the reference program's shape facts, at any float
  instance.

  For a cluster g: `S g = ∑ {b | label b = g} s b` (a scatter-add into zeros), `count g` the number of its samples,
  `N g = count g · 12544` (12544 = 112·112 elements per sample and channel),
  `mean g = S g / max (N g) 1`, `var g = (Q g − N g · mean g · mean g) / max (N g − 1) 1`.
  A sample's statistic is its cluster's (a gather at the label, a negative label wrapped by adding 4), blended with the
  running one: `0.2 · cluster + 0.8 · running`.
  `normalize` is the final map `((x − mu) · rsqrt (var + eps)) · w + b` with `mu`, `var` broadcast over the spatial axes
  and `w`, `b` over all but the channel axis. `spatialSum` is the reference's own sum over the spatial axes from zero.
-/
import proofs.«124204_j38560216383790_1_alg».proof.ReferenceIdeal
import proofs.«124204_j38560216383790_1_alg».proof.Proof.Gen.ReferenceIdeal

noncomputable section

namespace Cert.Stats

open Cert.ReferenceIdeal Cert.ReferenceIdeal.Gen Idealize.ShloMosaic

variable {F : FTy → Type} [FloatOps F]

/-- Arrays over (sample, channel, h, w), (sample, channel), (cluster, channel), the channels, the labels. -/
abbrev A4 (F : FTy → Type) := (⟨S64x64x112x112, .f32⟩ : BufTy).Contents (Elt F)
abbrev A2 (F : FTy → Type) := (⟨S64x64, .f32⟩ : BufTy).Contents (Elt F)
abbrev G2 (F : FTy → Type) := (⟨S4x64, .f32⟩ : BufTy).Contents (Elt F)
abbrev G1 (F : FTy → Type) := (⟨S4x1, .f32⟩ : BufTy).Contents (Elt F)
abbrev A1 (F : FTy → Type) := (⟨S64, .f32⟩ : BufTy).Contents (Elt F)
abbrev Lab (F : FTy → Type) := (⟨S64, .i32⟩ : BufTy).Contents (Elt F)

/-- The sum over the two spatial axes, from zero (the reference's `jnp.sum(axis=(2, 3))`). -/
def spatialSum (x : A4 F) : A2 F :=
  Host.reduceAdd x (constant S_ .f32 0x00000000#32) reducesTo_S64x64x112x112_S64x64_d2_3 h_S_

/-- The labels as a column of scatter / gather indices. -/
def labelCol (lab : Lab F) : (⟨S64x1, .i32⟩ : BufTy).Contents (Elt F) :=
  broadcastInDim S64x1 ![0] bcast_S64_S64x1_0 lab

/-- Per cluster and channel, the sum of `u` over the cluster's samples. -/
def clusterSum (u : A2 F) (lab : Lab F) : G2 F :=
  Host.scatterAdd scatter_S4x64_S64x1_S64x64_1_0_0_1 (broadcastInDim S4x64 ![] bcast_S_S4x64 (constant S_ .f32 0x00000000#32))
    (labelCol lab) u

/-- Per cluster, the number of elements per channel: its sample count times 112·112. -/
def clusterN (lab : Lab F) : G1 F :=
  mulf (broadcastInDim S4x1 ![0] bcast_S4_S4x1_0
      (Host.scatterAdd scatter_S4_S64x1_S64_n_0_0_1 (broadcastInDim S4 ![] bcast_S_S4 (constant S_ .f32 0x00000000#32))
        (labelCol lab) (broadcastInDim S64 ![] bcast_S_S64 (constant S_ .f32 0x3F800000#32))))
    (broadcastInDim S4x1 ![] bcast_S_S4x1 (constant S_ .f32 0x46440000#32))

/-- The cluster mean `S / max N 1`. -/
def clusterMean (s : A2 F) (lab : Lab F) : G2 F :=
  Host.divf (clusterSum s lab)
    (broadcastInDim S4x64 ![0, 1] bcast_S4x1_S4x64_0_1
      (maximumf (clusterN lab) (broadcastInDim S4x1 ![] bcast_S_S4x1 (constant S_ .f32 0x3F800000#32))))

/-- The unbiased cluster variance `(Q − N · mean · mean) / max (N − 1) 1`. -/
def clusterVar (s q : A2 F) (lab : Lab F) : G2 F :=
  Host.divf
    (subf (clusterSum q lab)
      (mulf (mulf (broadcastInDim S4x64 ![0, 1] bcast_S4x1_S4x64_0_1 (clusterN lab)) (clusterMean s lab)) (clusterMean s lab)))
    (broadcastInDim S4x64 ![0, 1] bcast_S4x1_S4x64_0_1
      (maximumf (subf (clusterN lab) (broadcastInDim S4x1 ![] bcast_S_S4x1 (constant S_ .f32 0x3F800000#32)))
        (broadcastInDim S4x1 ![] bcast_S_S4x1 (constant S_ .f32 0x3F800000#32))))

/-- A label with a negative value wrapped into range by adding the number of clusters. -/
def wrapLabel (lab : Lab F) : Lab F :=
  select (cmpi .slt lab (broadcastInDim S64 ![] bcast_S_S64 (constantI S_ 32 0#32)))
    (addi lab (broadcastInDim S64 ![] bcast_S_S64 (constantI S_ 32 4#32))) lab

/-- Each sample's row of a per-cluster table: the row at its label. -/
def perSample (g : G2 F) (lab : Lab F) : A2 F :=
  Host.gather gather_S4x64_S64x1_S64x64_1_0_n_n_0_1_164 g (broadcastInDim S64x1 ![0] bcast_S64_S64x1_0 (wrapLabel lab))

/-- `0.2 · (the sample's cluster statistic) + 0.8 · (the running statistic of the channel)`. -/
def blend (g : G2 F) (lab : Lab F) (r : A1 F) : A2 F :=
  addf (mulf (broadcastInDim S64x64 ![] bcast_S_S64x64 (constant S_ .f32 0x3E4CCCCD#32)) (perSample g lab))
    (broadcastInDim S64x64 ![0, 1] bcast_S1x64_S64x64_0_1
      (mulf (broadcastInDim S1x64 ![] bcast_S_S1x64 (constant S_ .f32 0x3F4CCCCD#32)) (broadcastInDim S1x64 ![1] bcast_S64_S1x64_1 r)))

/-- The blended mean of each (sample, channel). -/
def muOf (s : A2 F) (lab : Lab F) (rm : A1 F) : A2 F := blend (clusterMean s lab) lab rm

/-- The blended variance of each (sample, channel). -/
def varOf (s q : A2 F) (lab : Lab F) (rv : A1 F) : A2 F := blend (clusterVar s q lab) lab rv

/-- A (sample, channel) array spread over the spatial axes. -/
def overSpace (u : A2 F) : A4 F :=
  broadcastInDim S64x64x112x112 ![0, 1, 2, 3] bcast_S64x64x1x1_S64x64x112x112_0_1_2_3
    (broadcastInDim S64x64x1x1 ![0, 1] bcast_S64x64_S64x64x1x1_0_1 u)

/-- A per-channel array spread over samples and the spatial axes. -/
def overAllButChannel (u : A1 F) : A4 F :=
  broadcastInDim S64x64x112x112 ![0, 1, 2, 3] bcast_S1x64x1x1_S64x64x112x112_0_1_2_3
    (broadcastInDim S1x64x1x1 ![1] bcast_S64_S1x64x1x1_1 u)

/-- `((x − mu) · rsqrt (var + eps)) · w + b`. -/
def normalize (x : A4 F) (mu var : A2 F) (w b : A1 F) : A4 F :=
  addf (mulf (mulf (subf x (overSpace mu))
        (overSpace (Host.rsqrt (addf var (broadcastInDim S64x64 ![] bcast_S_S64x64 (constant S_ .f32 0x3727C5AC#32))))))
      (overAllButChannel w))
    (overAllButChannel b)

end Cert.Stats

end
-- ==== Proof.KernelMid.lean ====
/-
  The kernel's host operations between its two regions, read back: from any contents `W` at the stretch's entry, the two
  statistics arrays the second region reads end at the shared host arithmetic (`Stats.muOf`, `Stats.varOf`) of the
  first region's two result arrays, the labels and the running statistics as `W` has them; and the stretch writes none
  of the arrays the second region reads besides.
-/
import proofs.«124204_j38560216383790_1_alg».proof.Proof.Gen.KernelIdeal.Launch
import proofs.«124204_j38560216383790_1_alg».proof.Proof.Stats
import Idealize.ShloMosaic.Lib.StableHlo.Run

noncomputable section

namespace Cert.KernelIdeal.Mid

open Cert.KernelIdeal Cert.KernelIdeal.Gen Idealize.ShloMosaic Idealize.ShloMosaic.TcCoe Idealize.ShloMosaic.StableHlo

variable {F : FTy → Type} [FloatOps F]

set_option maxRecDepth 8192 in
set_option maxHeartbeats 4000000 in
/-- The blended mean array after the stretch. -/
theorem mu_after (W : Valuation τ sig (Elt F)) :
    StableHlo.after hostOps1 W (Proc.devRef .tc main_v41)
      = Cert.Stats.muOf (W (Proc.devRef .tc main_v0_0)) (W (Proc.devRef .tc main_arg5)) (W (Proc.devRef .tc main_arg1)) := by
  after_results_simp
  unfold Cert.Stats.muOf Cert.Stats.blend Cert.Stats.perSample Cert.Stats.wrapLabel Cert.Stats.clusterMean Cert.Stats.clusterN
    Cert.Stats.clusterSum Cert.Stats.labelCol
  rfl

set_option maxRecDepth 8192 in
set_option maxHeartbeats 4000000 in
/-- The blended variance array after the stretch. -/
theorem var_after (W : Valuation τ sig (Elt F)) :
    StableHlo.after hostOps1 W (Proc.devRef .tc main_v55)
      = Cert.Stats.varOf (W (Proc.devRef .tc main_v0_0)) (W (Proc.devRef .tc main_v0_1)) (W (Proc.devRef .tc main_arg5))
          (W (Proc.devRef .tc main_arg2)) := by
  after_results_simp
  unfold Cert.Stats.varOf Cert.Stats.blend Cert.Stats.perSample Cert.Stats.wrapLabel Cert.Stats.clusterVar Cert.Stats.clusterMean
    Cert.Stats.clusterN Cert.Stats.clusterSum Cert.Stats.labelCol
  rfl

set_option maxRecDepth 8192 in
set_option maxHeartbeats 4000000 in
/-- The stretch leaves the input array and the affine parameters as they were. -/
theorem arg0_after (W : Valuation τ sig (Elt F)) :
    StableHlo.after hostOps1 W (Proc.devRef .tc main_arg0) = W (Proc.devRef .tc main_arg0) := by
  after_results_simp
set_option maxRecDepth 8192 in
set_option maxHeartbeats 4000000 in
theorem arg3_after (W : Valuation τ sig (Elt F)) :
    StableHlo.after hostOps1 W (Proc.devRef .tc main_arg3) = W (Proc.devRef .tc main_arg3) := by
  after_results_simp
set_option maxRecDepth 8192 in
set_option maxHeartbeats 4000000 in
theorem arg4_after (W : Valuation τ sig (Elt F)) :
    StableHlo.after hostOps1 W (Proc.devRef .tc main_arg4) = W (Proc.devRef .tc main_arg4) := by
  after_results_simp

end Cert.KernelIdeal.Mid

end
-- ==== Proof.KernelValue.lean ====
/-
  The kernel's result array as a function of the launch memory, at the ideal instance.

  The array the run leaves in the result buffer is what region 1 leaves (`Region1.out_final`): the normalisation of the
  input by the two statistics arrays region 1 was entered with. Those are what the host stretch between the regions
  computes (`Mid.mu_after`, `Mid.var_after`: the shared host arithmetic) from the two arrays region 0 leaves, which are
  the per-(sample, channel) sums of the input and of its squares over the spatial axes (`Region0.sum_final`,
  `Region0.sumsq_final`). No region and no host operation writes an argument array, so each is read at its launch
  contents throughout.
-/
import proofs.«124204_j38560216383790_1_alg».proof.Proof.Gen.KernelIdeal.Frame
import proofs.«124204_j38560216383790_1_alg».proof.Proof.Region0
import proofs.«124204_j38560216383790_1_alg».proof.Proof.Region1
import proofs.«124204_j38560216383790_1_alg».proof.Proof.KernelMid
import proofs.«124204_j38560216383790_1_alg».proof.Proof.Spec
import proofs.«124204_j38560216383790_1_alg».proof.Proof.Stats

noncomputable section

namespace Cert.KernelIdeal.Result

open Cert.KernelIdeal Cert.KernelIdeal.Gen Cert.Spec
open Idealize.ShloMosaic Idealize.ShloMosaic.TcCoe Idealize.SL.Sem

variable (m : (ℓ : Loc nD τ sig) → Buf (Elt Ideal) ℓ) (ρ : Dev nD → PrngReg)

/-! ### The contents at region 0's exit -/

theorem exit0_x (c : Dev nD) : W1 m ρ c (Proc.devRef .tc main_arg0) = m ((c : Thread nD τ).loc main_arg0) :=
  (W1_arr m ρ c 0).trans (((dat0 (V0 m ρ) c).arrAt_in 0 rfl _).trans (A_eq0 (V0 m ρ) c 0))
theorem exit0_rm (c : Dev nD) : W1 m ρ c (Proc.devRef .tc main_arg1) = m ((c : Thread nD τ).loc main_arg1) :=
  W1_of_ne m ρ c main_arg1 (by decide)
theorem exit0_rv (c : Dev nD) : W1 m ρ c (Proc.devRef .tc main_arg2) = m ((c : Thread nD τ).loc main_arg2) :=
  W1_of_ne m ρ c main_arg2 (by decide)
theorem exit0_w (c : Dev nD) : W1 m ρ c (Proc.devRef .tc main_arg3) = m ((c : Thread nD τ).loc main_arg3) :=
  W1_of_ne m ρ c main_arg3 (by decide)
theorem exit0_b (c : Dev nD) : W1 m ρ c (Proc.devRef .tc main_arg4) = m ((c : Thread nD τ).loc main_arg4) :=
  W1_of_ne m ρ c main_arg4 (by decide)
theorem exit0_lab (c : Dev nD) : W1 m ρ c (Proc.devRef .tc main_arg5) = m ((c : Thread nD τ).loc main_arg5) :=
  W1_of_ne m ρ c main_arg5 (by decide)

/-- Region 0's first result: the spatial sums of the input. -/
theorem exit0_s (c : Dev nD) :
    W1 m ρ c (Proc.devRef .tc main_v0_0) = rowsSum (m ((c : Thread nD τ).loc main_arg0)) :=
  (W1_arr m ρ c 1).trans (Cert.KernelIdeal.Region0.sum_final (V0 m ρ) c)
/-- Region 0's second result: the spatial sums of the input's squares. -/
theorem exit0_q (c : Dev nD) :
    W1 m ρ c (Proc.devRef .tc main_v0_1) = rowsSum (sq (m ((c : Thread nD τ).loc main_arg0))) :=
  (W1_arr m ρ c 2).trans (Cert.KernelIdeal.Region0.sumsq_final (V0 m ρ) c)

/-! ### The contents at region 1's entry -/

theorem entry1_x (c : Dev nD) : V2 m ρ c main_arg0 = m ((c : Thread nD τ).loc main_arg0) :=
  (Cert.KernelIdeal.Mid.arg0_after (W1 m ρ c)).trans (exit0_x m ρ c)
theorem entry1_w (c : Dev nD) : V2 m ρ c main_arg3 = m ((c : Thread nD τ).loc main_arg3) :=
  (Cert.KernelIdeal.Mid.arg3_after (W1 m ρ c)).trans (exit0_w m ρ c)
theorem entry1_b (c : Dev nD) : V2 m ρ c main_arg4 = m ((c : Thread nD τ).loc main_arg4) :=
  (Cert.KernelIdeal.Mid.arg4_after (W1 m ρ c)).trans (exit0_b m ρ c)

/-- The blended mean region 1 reads. -/
theorem entry1_mu (c : Dev nD) :
    V2 m ρ c main_v41
      = Cert.Stats.muOf (F := Ideal) (rowsSum (m ((c : Thread nD τ).loc main_arg0))) (m ((c : Thread nD τ).loc main_arg5))
          (m ((c : Thread nD τ).loc main_arg1)) := by
  refine (Cert.KernelIdeal.Mid.mu_after (W1 m ρ c)).trans ?_
  rw [exit0_s, exit0_lab, exit0_rm]

/-- The blended variance region 1 reads. -/
theorem entry1_var (c : Dev nD) :
    V2 m ρ c main_v55
      = Cert.Stats.varOf (F := Ideal) (rowsSum (m ((c : Thread nD τ).loc main_arg0)))
          (rowsSum (sq (m ((c : Thread nD τ).loc main_arg0)))) (m ((c : Thread nD τ).loc main_arg5))
          (m ((c : Thread nD τ).loc main_arg2)) := by
  refine (Cert.KernelIdeal.Mid.var_after (W1 m ρ c)).trans ?_
  rw [exit0_s, exit0_q, exit0_lab, exit0_rv]

/-! ### The result -/

/-- The kernel's result as a function of the launch memory. -/
def result (c : Dev nD) : Buf (Elt Ideal) ((c : Thread nD τ).loc main_v56) :=
  normSpec (m ((c : Thread nD τ).loc main_arg0))
    (Cert.Stats.muOf (F := Ideal) (rowsSum (m ((c : Thread nD τ).loc main_arg0))) (m ((c : Thread nD τ).loc main_arg5))
      (m ((c : Thread nD τ).loc main_arg1)))
    (Cert.Stats.varOf (F := Ideal) (rowsSum (m ((c : Thread nD τ).loc main_arg0)))
      (rowsSum (sq (m ((c : Thread nD τ).loc main_arg0)))) (m ((c : Thread nD τ).loc main_arg5))
      (m ((c : Thread nD τ).loc main_arg2)))
    (m ((c : Thread nD τ).loc main_arg3)) (m ((c : Thread nD τ).loc main_arg4))

/-- What the last boundary's contents hold at the result buffer. -/
theorem exit1_out (c : Dev nD) : W3 m ρ c (Proc.devRef .tc main_v56) = result m c := by
  refine (W3_arr m ρ c 5).trans ((Cert.KernelIdeal.Region1.out_final (V2 m ρ) c).trans ?_)
  rw [entry1_x, entry1_mu, entry1_var, entry1_w, entry1_b]
  rfl

end Cert.KernelIdeal.Result

end
-- ==== Proof.RefSide.lean ====
/-
  The reference's result array as the shared host arithmetic applied to its own spatial sums: the composed term its run
  states is, operation for operation, `normalize x (muOf s lab rm) (varOf s q lab rv) w b` at `s = spatialSum x`,
  `q = spatialSum (x · x)`.
-/
import proofs.«124204_j38560216383790_1_alg».proof.Proof.Gen.ReferenceIdeal.Run
import proofs.«124204_j38560216383790_1_alg».proof.Proof.Stats

noncomputable section

namespace Cert.RefSide

open Cert.ReferenceIdeal Cert.ReferenceIdeal.Gen Cert.Stats Idealize.ShloMosaic Idealize.ShloMosaic.TcCoe Idealize.SL.Sem

variable {F : FTy → Type} [FloatOps F]

set_option maxRecDepth 8192 in
theorem result_eq (m : (ℓ : Loc nD τ sig) → Buf (Elt F) ℓ) (c : Dev nD) :
    Cert.ReferenceIdeal.Value.res_main_v72 m c
      = normalize (m ((c.tc : Thread nD τ).loc main_arg0))
          (muOf (spatialSum (m ((c.tc : Thread nD τ).loc main_arg0))) (m ((c.tc : Thread nD τ).loc main_arg5))
            (m ((c.tc : Thread nD τ).loc main_arg1)))
          (varOf (spatialSum (m ((c.tc : Thread nD τ).loc main_arg0)))
            (spatialSum (mulf (m ((c.tc : Thread nD τ).loc main_arg0)) (m ((c.tc : Thread nD τ).loc main_arg0))))
            (m ((c.tc : Thread nD τ).loc main_arg5)) (m ((c.tc : Thread nD τ).loc main_arg2)))
          (m ((c.tc : Thread nD τ).loc main_arg3)) (m ((c.tc : Thread nD τ).loc main_arg4)) := by
  unfold Cert.ReferenceIdeal.Value.res_main_v72 normalize overSpace overAllButChannel muOf varOf blend perSample wrapLabel
    clusterVar clusterMean clusterN clusterSum labelCol spatialSum
  rfl

end Cert.RefSide

end
-- ==== Proof.RefRead.lean ====
/-
  The reference's two outer layers read at an index, at the ideal instance.

  Its sum over the spatial axes from zero is `rowsSum`: the indices of the [64,64,112,112] array that drop to the
  (sample, channel) pair `j` are exactly the `(j₀, j₁, h, w)`, one for each pair `(h, w)`, and the initial value is the
  extended real zero. Its final map is `normSpec`: a (sample, channel) array broadcast over the spatial axes reads, at
  `i`, the array at `i`'s sample and channel; a per-channel array broadcast over everything else reads it at `i`'s channel;
  a scalar broadcast reads the scalar; every arithmetic operation is the exact one, entry by entry.
-/
import proofs.«124204_j38560216383790_1_alg».proof.Proof.Stats
import proofs.«124204_j38560216383790_1_alg».proof.Proof.Spec
import Idealize.ShloMosaic.Lib.Pipeline.Value
import Idealize.ShloMosaic.Lib.IdealHost

noncomputable section

namespace Cert.RefRead

open Cert.ReferenceIdeal Cert.ReferenceIdeal.Gen Cert.Stats Cert.Spec
open Idealize.ShloMosaic Idealize.ShloMosaic.ValueIdx

/-! ### The spatial sum -/

/-- The index `(j₀, j₁, h, w)`. -/
abbrev at_ (j : X2.Idx) (p : Fin 112 × Fin 112) : X4.Idx :=
  ix4 (⟨(j 0).val, (j 0).isLt⟩ : Fin 64) (⟨(j 1).val, (j 1).isLt⟩ : Fin 64) p.1 p.2

theorem drop_val0 (i : X4.Idx) : ((reducesTo_S64x64x112x112_S64x64_d2_3.drop i) 0 : ℕ) = (i 0).val :=
  Shape.ReducesTo.drop_apply_val_of_eq reducesTo_S64x64x112x112_S64x64_d2_3 i 0 0
theorem drop_val1 (i : X4.Idx) : ((reducesTo_S64x64x112x112_S64x64_d2_3.drop i) 1 : ℕ) = (i 1).val :=
  Shape.ReducesTo.drop_apply_val_of_eq reducesTo_S64x64x112x112_S64x64_d2_3 i 1 1

/-- Dropping the spatial axes of `(j₀, j₁, h, w)` leaves `j`. -/
theorem drop_at (j : X2.Idx) (p : Fin 112 × Fin 112) : reducesTo_S64x64x112x112_S64x64_d2_3.drop (at_ j p) = j := by
  funext b
  match b with
  | ⟨0, _⟩ => exact Fin.ext (drop_val0 (at_ j p))
  | ⟨1, _⟩ => exact Fin.ext (drop_val1 (at_ j p))

/-- An index that drops to `j` is `(j₀, j₁, i₂, i₃)`. -/
theorem at_of_drop (i : X4.Idx) (j : X2.Idx) (h : reducesTo_S64x64x112x112_S64x64_d2_3.drop i = j) :
    at_ j (⟨(i 2).val, (i 2).isLt⟩, ⟨(i 3).val, (i 3).isLt⟩) = i := by
  subst h
  funext a
  match a with
  | ⟨0, _⟩ => exact Fin.ext (drop_val0 i)
  | ⟨1, _⟩ => exact Fin.ext (drop_val1 i)
  | ⟨2, _⟩ => rfl
  | ⟨3, _⟩ => rfl

/-- The reference's sum over the spatial axes from zero is the double sum over `h` and `w`. -/
theorem spatialSum_eq (x : A4 Ideal) : spatialSum (F := Ideal) x = rowsSum x := by
  funext j
  show Ideal.hostReduceAdd reducesTo_S64x64x112x112_S64x64_d2_3 x (Ideal.ofBits .f32 0x00000000#32) j = rowsSum x j
  unfold Ideal.hostReduceAdd rowsSum
  rw [Ideal.ofBits_zero_f32, zero_add, ← Fintype.sum_prod_type (f := fun p : Fin 112 × Fin 112 => x (at_ j p))]
  refine Finset.sum_nbij' (fun i => ((⟨(i 2).val, (i 2).isLt⟩ : Fin 112), (⟨(i 3).val, (i 3).isLt⟩ : Fin 112))) (at_ j)
    (fun _ _ => Finset.mem_univ _) (fun p _ => Finset.mem_filter.mpr ⟨Finset.mem_univ _, drop_at j p⟩)
    (fun i hi => at_of_drop i j (Finset.mem_filter.mp hi).2) (fun p _ => rfl)
    (fun i hi => congrArg x (at_of_drop i j (Finset.mem_filter.mp hi).2).symm)

/-- The same of the squares. -/
theorem spatialSum_sq_eq (x : A4 Ideal) :
    spatialSum (F := Ideal) (mulf (F := Ideal) (s := S64x64x112x112) (φ := .f32) x x) = rowsSum (sq x) :=
  spatialSum_eq (mulf (F := Ideal) (s := S64x64x112x112) (φ := .f32) x x)

/-! ### The final map -/

/-- A (sample, channel) array spread over the spatial axes reads, at `i`, the array at `i`'s sample and channel. -/
theorem overSpace_apply (u : A2 Ideal) (i : X4.Idx) : overSpace (F := Ideal) u i = u (bc i) := by
  unfold overSpace
  refine (broadcastInDim_apply _ bcast_S64x64x1x1_S64x64x112x112_0_1_2_3 _ i
    (ix4 (⟨(i 0).val, (i 0).isLt⟩ : Fin 64) (⟨(i 1).val, (i 1).isLt⟩ : Fin 64) (0 : Fin 1) (0 : Fin 1)) (fun a => match a with
      | ⟨0, _⟩ => by show (i 0).val = if (64 : Nat) = 1 then 0 else (i 0).val; rw [if_neg (by decide)]
      | ⟨1, _⟩ => by show (i 1).val = if (64 : Nat) = 1 then 0 else (i 1).val; rw [if_neg (by decide)]
      | ⟨2, _⟩ => by show (0 : Nat) = if (1 : Nat) = 1 then 0 else (i 2).val; rw [if_pos rfl]
      | ⟨3, _⟩ => by show (0 : Nat) = if (1 : Nat) = 1 then 0 else (i 3).val; rw [if_pos rfl])).trans ?_
  exact broadcastInDim_apply _ bcast_S64x64_S64x64x1x1_0_1 u _ (bc i) (fun a => match a with
      | ⟨0, _⟩ => by show (i 0).val = if (64 : Nat) = 1 then 0 else (i 0).val; rw [if_neg (by decide)]
      | ⟨1, _⟩ => by show (i 1).val = if (64 : Nat) = 1 then 0 else (i 1).val; rw [if_neg (by decide)])

/-- A per-channel array spread over samples and the spatial axes reads, at `i`, the array at `i`'s channel. -/
theorem overAllButChannel_apply (u : A1 Ideal) (i : X4.Idx) : overAllButChannel (F := Ideal) u i = u (ch i) := by
  unfold overAllButChannel
  refine (broadcastInDim_apply _ bcast_S1x64x1x1_S64x64x112x112_0_1_2_3 _ i
    (ix4 (0 : Fin 1) (⟨(i 1).val, (i 1).isLt⟩ : Fin 64) (0 : Fin 1) (0 : Fin 1)) (fun a => match a with
      | ⟨0, _⟩ => by show (0 : Nat) = if (1 : Nat) = 1 then 0 else (i 0).val; rw [if_pos rfl]
      | ⟨1, _⟩ => by show (i 1).val = if (64 : Nat) = 1 then 0 else (i 1).val; rw [if_neg (by decide)]
      | ⟨2, _⟩ => by show (0 : Nat) = if (1 : Nat) = 1 then 0 else (i 2).val; rw [if_pos rfl]
      | ⟨3, _⟩ => by show (0 : Nat) = if (1 : Nat) = 1 then 0 else (i 3).val; rw [if_pos rfl])).trans ?_
  exact broadcastInDim_apply _ bcast_S64_S1x64x1x1_1 u _ (ch i) (fun a => match a with
      | ⟨0, _⟩ => by show (i 1).val = if (64 : Nat) = 1 then 0 else (i 1).val; rw [if_neg (by decide)])

/-- The reference's final map, index by index. -/
theorem normalize_eq (x : A4 Ideal) (mu var : A2 Ideal) (w b : A1 Ideal) :
    Cert.Stats.normalize (F := Ideal) x mu var w b = normSpec x mu var w b := by
  funext i
  unfold Cert.Stats.normalize normSpec
  rw [addf_apply, mulf_apply, mulf_apply, subf_apply, overSpace_apply, overSpace_apply, overAllButChannel_apply,
    overAllButChannel_apply]
  show (x i - mu (bc i)) * Ideal.rsqrt (var (bc i)
      + broadcastInDim S64x64 ![] bcast_S_S64x64 (constant (F := Ideal) S_ .f32 0x3727C5AC#32) (bc i)) * w (ch i) + b (ch i) = _
  rw [broadcastInDim_scalar_apply]
  rfl

end Cert.RefRead

end
-- ==== Proof.lean ====
/-
  The certificate's claims.

  The kernel computes, in two pallas_call regions around a stretch of host arithmetic, what the reference computes on
  the host alone. Region 0 accumulates, over the blocks of the height axis, the per-(sample, channel) sums of the input
  and of its squares over the two spatial axes; the reference takes those two sums in one host reduction each. Over the
  extended reals both are the same double sum over height and width (`Spec.rowsSum`): a sum is not changed by grouping
  its terms into blocks, and the zero both start from is the neutral element. From the two sums the programs apply the
  same host arithmetic, operation for operation — per-cluster sums and counts by scatter-add, mean and unbiased
  variance per cluster, each sample's statistics gathered at its label and blended with the running ones
  (`Stats.muOf`, `Stats.varOf`) — and it is carried as one function of the sums, never opened. Region 1 and the
  reference's last operations both map the input to `((x − mu) · rsqrt (var + eps)) · w + b` entry by entry
  (`Spec.normSpec`), with the same word for `eps`.

  The three frames: the two kernels' are the generated frame certificates; the reference has no kernel, and its frame is
  its generated run with the result dropped. The ideal pass rewrote nothing, so `preserves` asks nothing.
-/
import proofs.«124204_j38560216383790_1_alg».proof.Defs
import proofs.«124204_j38560216383790_1_alg».proof.Proof.Gen.Kernel
import proofs.«124204_j38560216383790_1_alg».proof.Proof.Gen.Kernel.Frame
import proofs.«124204_j38560216383790_1_alg».proof.Proof.Gen.KernelIdeal
import proofs.«124204_j38560216383790_1_alg».proof.Proof.Gen.KernelIdeal.Frame
import proofs.«124204_j38560216383790_1_alg».proof.Proof.Gen.ReferenceIdeal
import proofs.«124204_j38560216383790_1_alg».proof.Proof.Gen.ReferenceIdeal.Run
import proofs.«124204_j38560216383790_1_alg».proof.Proof.Gen.Pre_finite_inputs
import proofs.«124204_j38560216383790_1_alg».proof.Proof.KernelRun
import proofs.«124204_j38560216383790_1_alg».proof.Proof.KernelValue
import proofs.«124204_j38560216383790_1_alg».proof.Proof.RefSide
import proofs.«124204_j38560216383790_1_alg».proof.Proof.RefRead

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at `normSpec` of the input, the blended statistics of its spatial sums, and the
    affine parameters: the kernel's by its three stretches read back, the reference's by its composed term read as the
    shared arithmetic of its own sums, which are the same double sums. -/
theorem algebraic : Cert.algebraic_KernelIdeal_ReferenceIdeal := by
  intro m ρ m' ρ' _ hagree
  refine ⟨fun c => Cert.KernelIdeal.Result.result m c, ?_, ?_⟩
  · exact (θ_run Cert.KernelIdeal.defs _ _).mono
      (fun _ h c => ⟨(h c).1.trans (Cert.KernelIdeal.Result.exit1_out m ρ c), (h c).2⟩)
      (Cert.KernelIdeal.Named.run_named (F := Ideal) m ρ)
  · refine (θ_run Cert.ReferenceIdeal.defs _ _).mono (fun _ h c => ⟨(h c).1.trans ?_, (h c).2⟩)
      (Cert.ReferenceIdeal.Value.run (F := Ideal) m' ρ')
    rw [Cert.RefSide.result_eq, Cert.RefRead.normalize_eq, Cert.RefRead.spatialSum_sq_eq, Cert.RefRead.spatialSum_eq,
      (hagree c).1, (hagree c).2.1, (hagree c).2.2.1, (hagree c).2.2.2.1, (hagree c).2.2.2.2.1, (hagree c).2.2.2.2.2]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
